-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x260 : Shape := ⟨2, ![20000, 260]⟩
abbrev S320000x8 : Shape := ⟨2, ![320000, 8]⟩
abbrev S64x512 : Shape := ⟨2, ![64, 512]⟩
abbrev S320000 : Shape := ⟨1, ![320000]⟩
abbrev S128x260 : Shape := ⟨2, ![128, 260]⟩
abbrev S128 : Shape := ⟨1, ![128]⟩
abbrev S30x8 : Shape := ⟨2, ![30, 8]⟩
abbrev S30 : Shape := ⟨1, ![30]⟩
abbrev S256x512 : Shape := ⟨2, ![256, 512]⟩
abbrev S256 : Shape := ⟨1, ![256]⟩
abbrev S128x286 : Shape := ⟨2, ![128, 286]⟩
abbrev S_ : Shape := ⟨0, ![]⟩

class Facts : Prop where
  bcast_S_S20000x260 : S_.BroadcastsInDim S20000x260 (![] : Fin 0 → Fin S20000x260.rank)
  reducesTo_S20000x260_S_d0_1 : S20000x260.ReducesTo [0, 1] S_
  h_S_ : 0 < S_.numel
  bcast_S_S320000x8 : S_.BroadcastsInDim S320000x8 (![] : Fin 0 → Fin S320000x8.rank)
  reducesTo_S320000x8_S_d0_1 : S320000x8.ReducesTo [0, 1] S_
  bcast_S_S64x512 : S_.BroadcastsInDim S64x512 (![] : Fin 0 → Fin S64x512.rank)
  reducesTo_S64x512_S_d0_1 : S64x512.ReducesTo [0, 1] S_
  bcast_S_S128x260 : S_.BroadcastsInDim S128x260 (![] : Fin 0 → Fin S128x260.rank)
  reducesTo_S128x260_S_d0_1 : S128x260.ReducesTo [0, 1] S_
  bcast_S_S128 : S_.BroadcastsInDim S128 (![] : Fin 0 → Fin S128.rank)
  reducesTo_S128_S_d0 : S128.ReducesTo [0] S_
  bcast_S_S30x8 : S_.BroadcastsInDim S30x8 (![] : Fin 0 → Fin S30x8.rank)
  reducesTo_S30x8_S_d0_1 : S30x8.ReducesTo [0, 1] S_
  bcast_S_S30 : S_.BroadcastsInDim S30 (![] : Fin 0 → Fin S30.rank)
  reducesTo_S30_S_d0 : S30.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x286 : S_.BroadcastsInDim S128x286 (![] : Fin 0 → Fin S128x286.rank)
  reducesTo_S128x286_S_d0_1 : S128x286.ReducesTo [0, 1] S_
  bcast_S_S320000 : S_.BroadcastsInDim S320000 (![] : Fin 0 → Fin S320000.rank)
  reducesTo_S320000_S_d0 : S320000.ReducesTo [0] S_

variable [Facts]

def fn_part5 {F : FTy → Type} [FloatOps F] (main_arg5 : IVec S320000 32) (main_v82 : IVec S_ 1) (main_v84 : IVec S320000 1) : IVec S_ 1 :=
  let main_c_33 : IVec S_ 32 := constantI S_ 32 64#32
  let main_v85 : IVec S320000 32 := broadcastInDim S320000 ![] bcast_S_S320000 main_c_33
  let main_v86 : IVec S320000 1 := cmpi .slt main_arg5 main_v85
  let main_v87 : IVec S320000 1 := andi main_v84 main_v86
  let main_c_34 : IVec S_ 1 := constantI S_ 1 1#1
  let main_v88 : IVec S_ 1 := (fun x v => Host.reduce IntOp.andi x v reducesTo_S320000_S_d0 h_S_) main_v87 main_c_34
  let main_v89 : IVec S_ 1 := andi main_v82 main_v88
  main_v89

def fn_part4 {F : FTy → Type} [FloatOps F] (main_arg3 : IVec S320000 32) (main_arg4 : IVec S320000 32) (main_arg5 : IVec S320000 32) (main_v63 : IVec S_ 1) (main_v67 : IVec S_ 1) : IVec S_ 1 :=
  let main_v68 : IVec S_ 1 := andi main_v63 main_v67
  let main_c_26 : IVec S_ 32 := constantI S_ 32 0#32
  let main_v69 : IVec S320000 32 := broadcastInDim S320000 ![] bcast_S_S320000 main_c_26
  let main_v70 : IVec S320000 1 := cmpi .sge main_arg3 main_v69
  let main_c_27 : IVec S_ 32 := constantI S_ 32 20000#32
  let main_v71 : IVec S320000 32 := broadcastInDim S320000 ![] bcast_S_S320000 main_c_27
  let main_v72 : IVec S320000 1 := cmpi .slt main_arg3 main_v71
  let main_v73 : IVec S320000 1 := andi main_v70 main_v72
  let main_c_28 : IVec S_ 1 := constantI S_ 1 1#1
  let main_v74 : IVec S_ 1 := (fun x v => Host.reduce IntOp.andi x v reducesTo_S320000_S_d0 h_S_) main_v73 main_c_28
  let main_v75 : IVec S_ 1 := andi main_v68 main_v74
  let main_c_29 : IVec S_ 32 := constantI S_ 32 0#32
  let main_v76 : IVec S320000 32 := broadcastInDim S320000 ![] bcast_S_S320000 main_c_29
  let main_v77 : IVec S320000 1 := cmpi .sge main_arg4 main_v76
  let main_c_30 : IVec S_ 32 := constantI S_ 32 20000#32
  let main_v78 : IVec S320000 32 := broadcastInDim S320000 ![] bcast_S_S320000 main_c_30
  let main_v79 : IVec S320000 1 := cmpi .slt main_arg4 main_v78
  let main_v80 : IVec S320000 1 := andi main_v77 main_v79
  let main_c_31 : IVec S_ 1 := constantI S_ 1 1#1
  let main_v81 : IVec S_ 1 := (fun x v => Host.reduce IntOp.andi x v reducesTo_S320000_S_d0 h_S_) main_v80 main_c_31
  let main_v82 : IVec S_ 1 := andi main_v75 main_v81
  let main_c_32 : IVec S_ 32 := constantI S_ 32 0#32
  let main_v83 : IVec S320000 32 := broadcastInDim S320000 ![] bcast_S_S320000 main_c_32
  let main_v84 : IVec S320000 1 := cmpi .sge main_arg5 main_v83
  fn_part5 (F := F) main_arg5 main_v82 main_v84

def fn_part3 {F : FTy → Type} [FloatOps F] (main_arg3 : IVec S320000 32) (main_arg4 : IVec S320000 32) (main_arg5 : IVec S320000 32) (main_arg14 : FVec F S256 .f32) (main_arg15 : FVec F S128x286 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg14
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x286 .f32 := Host.absf main_arg15
  let main_cst_22 : FVec F S_ .f32 := constant S_ .f32 0x7F800000#32
  let main_v60 : FVec F S128x286 .f32 := broadcastInDim S128x286 ![] bcast_S_S128x286 main_cst_22
  let main_v61 : IVec S128x286 1 := cmpf .olt main_v59 main_v60
  let main_c_23 : IVec S_ 1 := constantI S_ 1 1#1
  let main_v62 : IVec S_ 1 := (fun x v => Host.reduce IntOp.andi x v reducesTo_S128x286_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg5 main_v63 main_v67

def fn_part2 {F : FTy → Type} [FloatOps F] (main_arg3 : IVec S320000 32) (main_arg4 : IVec S320000 32) (main_arg5 : IVec S320000 32) (main_arg10 : FVec F S30 .f32) (main_arg11 : FVec F S30 .f32) (main_arg12 : FVec F S256x512 .f32) (main_arg13 : FVec F S256 .f32) (main_arg14 : FVec F S256 .f32) (main_arg15 : FVec F S128x286 .f32) (main_arg16 : FVec F S128 .f32) (main_v33 : IVec S_ 1) : IVec S_ 1 :=
  let main_v34 : FVec F S30 .f32 := Host.absf main_arg10
  let main_cst_12 : FVec F S_ .f32 := constant S_ .f32 0x7F800000#32
  let main_v35 : FVec F S30 .f32 := broadcastInDim S30 ![] bcast_S_S30 main_cst_12
  let main_v36 : IVec S30 1 := cmpf .olt main_v34 main_v35
  let main_c_13 : IVec S_ 1 := constantI S_ 1 1#1
  let main_v37 : IVec S_ 1 := (fun x v => Host.reduce IntOp.andi x v reducesTo_S30_S_d0 h_S_) main_v36 main_c_13
  let main_v38 : IVec S_ 1 := andi main_v33 main_v37
  let main_v39 : FVec F S30 .f32 := Host.absf main_arg11
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S256x512 .f32 := Host.absf main_arg12
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg3 main_arg4 main_arg5 main_arg14 main_arg15 main_arg16 main_v48 main_v49 main_v50

def fn_part1 {F : FTy → Type} [FloatOps F] (main_arg3 : IVec S320000 32) (main_arg4 : IVec S320000 32) (main_arg5 : IVec S320000 32) (main_arg7 : FVec F S128 .f32) (main_arg8 : FVec F S128 .f32) (main_arg9 : FVec F S30x8 .f32) (main_arg10 : FVec F S30 .f32) (main_arg11 : FVec F S30 .f32) (main_arg12 : FVec F S256x512 .f32) (main_arg13 : FVec F S256 .f32) (main_arg14 : FVec F S256 .f32) (main_arg15 : FVec F S128x286 .f32) (main_arg16 : FVec F S128 .f32) (main_v13 : IVec S_ 1) (main_v16 : IVec S128x260 1) : IVec S_ 1 :=
  let main_c_5 : IVec S_ 1 := constantI S_ 1 1#1
  let main_v17 : IVec S_ 1 := (fun x v => Host.reduce IntOp.andi x v reducesTo_S128x260_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S30x8 .f32 := Host.absf main_arg9
  let main_cst_10 : FVec F S_ .f32 := constant S_ .f32 0x7F800000#32
  let main_v30 : FVec F S30x8 .f32 := broadcastInDim S30x8 ![] bcast_S_S30x8 main_cst_10
  let main_v31 : IVec S30x8 1 := cmpf .olt main_v29 main_v30
  let main_c_11 : IVec S_ 1 := constantI S_ 1 1#1
  let main_v32 : IVec S_ 1 := (fun x v => Host.reduce IntOp.andi x v reducesTo_S30x8_S_d0_1 h_S_) main_v31 main_c_11
  let main_v33 : IVec S_ 1 := andi main_v28 main_v32
  fn_part2 (F := F) main_arg3 main_arg4 main_arg5 main_arg10 main_arg11 main_arg12 main_arg13 main_arg14 main_arg15 main_arg16 main_v33

def fn {F : FTy → Type} [FloatOps F] (main_arg0 : FVec F S20000x260 .f32) (main_arg1 : FVec F S320000x8 .f32) (main_arg2 : FVec F S64x512 .f32) (main_arg3 : IVec S320000 32) (main_arg4 : IVec S320000 32) (main_arg5 : IVec S320000 32) (main_arg6 : FVec F S128x260 .f32) (main_arg7 : FVec F S128 .f32) (main_arg8 : FVec F S128 .f32) (main_arg9 : FVec F S30x8 .f32) (main_arg10 : FVec F S30 .f32) (main_arg11 : FVec F S30 .f32) (main_arg12 : FVec F S256x512 .f32) (main_arg13 : FVec F S256 .f32) (main_arg14 : FVec F S256 .f32) (main_arg15 : FVec F S128x286 .f32) (main_arg16 : FVec F S128 .f32) : IVec S_ 1 :=
  let main_v0 : FVec F S20000x260 .f32 := Host.absf main_arg0
  let main_cst : FVec F S_ .f32 := constant S_ .f32 0x7F800000#32
  let main_v1 : FVec F S20000x260 .f32 := broadcastInDim S20000x260 ![] bcast_S_S20000x260 main_cst
  let main_v2 : IVec S20000x260 1 := cmpf .olt main_v0 main_v1
  let main_c : IVec S_ 1 := constantI S_ 1 1#1
  let main_v3 : IVec S_ 1 := (fun x v => Host.reduce IntOp.andi x v reducesTo_S20000x260_S_d0_1 h_S_) main_v2 main_c
  let main_v4 : FVec F S320000x8 .f32 := Host.absf main_arg1
  let main_cst_0 : FVec F S_ .f32 := constant S_ .f32 0x7F800000#32
  let main_v5 : FVec F S320000x8 .f32 := broadcastInDim S320000x8 ![] bcast_S_S320000x8 main_cst_0
  let main_v6 : IVec S320000x8 1 := cmpf .olt main_v4 main_v5
  let main_c_1 : IVec S_ 1 := constantI S_ 1 1#1
  let main_v7 : IVec S_ 1 := (fun x v => Host.reduce IntOp.andi x v reducesTo_S320000x8_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S128x260 .f32 := Host.absf main_arg6
  let main_cst_4 : FVec F S_ .f32 := constant S_ .f32 0x7F800000#32
  let main_v15 : FVec F S128x260 .f32 := broadcastInDim S128x260 ![] bcast_S_S128x260 main_cst_4
  let main_v16 : IVec S128x260 1 := cmpf .olt main_v14 main_v15
  fn_part1 (F := F) main_arg3 main_arg4 main_arg5 main_arg7 main_arg8 main_arg9 main_arg10 main_arg11 main_arg12 main_arg13 main_arg14 main_arg15 main_arg16 main_v13 main_v16
-- ==== Kernel.lean ====
abbrev S20000x260 : Shape := ⟨2, ![20000, 260]⟩
abbrev S320000x8 : Shape := ⟨2, ![320000, 8]⟩
abbrev S64x512 : Shape := ⟨2, ![64, 512]⟩
abbrev S320000 : Shape := ⟨1, ![320000]⟩
abbrev S128x260 : Shape := ⟨2, ![128, 260]⟩
abbrev S128 : Shape := ⟨1, ![128]⟩
abbrev S30x8 : Shape := ⟨2, ![30, 8]⟩
abbrev S30 : Shape := ⟨1, ![30]⟩
abbrev S256x512 : Shape := ⟨2, ![256, 512]⟩
abbrev S256 : Shape := ⟨1, ![256]⟩
abbrev S128x286 : Shape := ⟨2, ![128, 286]⟩
abbrev S_ : Shape := ⟨0, ![]⟩
abbrev S128x1 : Shape := ⟨2, ![128, 1]⟩
abbrev S260x128 : Shape := ⟨2, ![260, 128]⟩
abbrev S30x1 : Shape := ⟨2, ![30, 1]⟩
abbrev S8x30 : Shape := ⟨2, ![8, 30]⟩
abbrev S256x1 : Shape := ⟨2, ![256, 1]⟩
abbrev S512x256 : Shape := ⟨2, ![512, 256]⟩
abbrev S286x128 : Shape := ⟨2, ![286, 128]⟩
abbrev S1x128 : Shape := ⟨2, ![1, 128]⟩
abbrev S1x30 : Shape := ⟨2, ![1, 30]⟩
abbrev S64x256 : Shape := ⟨2, ![64, 256]⟩
abbrev S1x256 : Shape := ⟨2, ![1, 256]⟩
abbrev S20000x128 : Shape := ⟨2, ![20000, 128]⟩
abbrev S2000x260 : Shape := ⟨2, ![2000, 260]⟩
abbrev S2000x128 : Shape := ⟨2, ![2000, 128]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S3200x128 : Shape := ⟨2, ![3200, 128]⟩
abbrev S3200x8 : Shape := ⟨2, ![3200, 8]⟩
abbrev S3200x1 : Shape := ⟨2, ![3200, 1]⟩
abbrev S3200x30 : Shape := ⟨2, ![3200, 30]⟩
abbrev S3200x64 : Shape := ⟨2, ![3200, 64]⟩
abbrev S3200x256 : Shape := ⟨2, ![3200, 256]⟩
abbrev S3200x286 : Shape := ⟨2, ![3200, 286]⟩
abbrev S3200 : Shape := ⟨1, ![3200]⟩

abbrev nBuf : Space → Nat
  | .hbm => 101
  | .vmem => 21
  | .smem => 0
  | _ => 0

abbrev bufTy : (tb : Table) → Fin (tcTables nBuf tb) → BufTy
  | .hbm, ⟨0, _⟩ => ⟨S20000x260, .f32⟩
  | .hbm, ⟨1, _⟩ => ⟨S320000x8, .f32⟩
  | .hbm, ⟨2, _⟩ => ⟨S64x512, .f32⟩
  | .hbm, ⟨3, _⟩ => ⟨S320000, .i32⟩
  | .hbm, ⟨4, _⟩ => ⟨S320000, .i32⟩
  | .hbm, ⟨5, _⟩ => ⟨S320000, .i32⟩
  | .hbm, ⟨6, _⟩ => ⟨S128x260, .f32⟩
  | .hbm, ⟨7, _⟩ => ⟨S128, .f32⟩
  | .hbm, ⟨8, _⟩ => ⟨S128, .f32⟩
  | .hbm, ⟨9, _⟩ => ⟨S30x8, .f32⟩
  | .hbm, ⟨10, _⟩ => ⟨S30, .f32⟩
  | .hbm, ⟨11, _⟩ => ⟨S30, .f32⟩
  | .hbm, ⟨12, _⟩ => ⟨S256x512, .f32⟩
  | .hbm, ⟨13, _⟩ => ⟨S256, .f32⟩
  | .hbm, ⟨14, _⟩ => ⟨S256, .f32⟩
  | .hbm, ⟨15, _⟩ => ⟨S128x286, .f32⟩
  | .hbm, ⟨16, _⟩ => ⟨S128, .f32⟩
  | .hbm, ⟨17, _⟩ => ⟨S128x260, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128x1, .f32⟩
  | .hbm, ⟨23, _⟩ => ⟨S128x260, .f32⟩
  | .hbm, ⟨24, _⟩ => ⟨S128x260, .f32⟩
  | .hbm, ⟨25, _⟩ => ⟨S260x128, .f32⟩
  | .hbm, ⟨26, _⟩ => ⟨S30x8, .f32⟩
  | .hbm, ⟨27, _⟩ => ⟨S_, .f32⟩
  | .hbm, ⟨28, _⟩ => ⟨S30, .f32⟩
  | .hbm, ⟨29, _⟩ => ⟨S30, .f32⟩
  | .hbm, ⟨30, _⟩ => ⟨S30, .f32⟩
  | .hbm, ⟨31, _⟩ => ⟨S30x1, .f32⟩
  | .hbm, ⟨32, _⟩ => ⟨S30x8, .f32⟩
  | .hbm, ⟨33, _⟩ => ⟨S30x8, .f32⟩
  | .hbm, ⟨34, _⟩ => ⟨S8x30, .f32⟩
  | .hbm, ⟨35, _⟩ => ⟨S256x512, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256x1, .f32⟩
  | .hbm, ⟨41, _⟩ => ⟨S256x512, .f32⟩
  | .hbm, ⟨42, _⟩ => ⟨S256x512, .f32⟩
  | .hbm, ⟨43, _⟩ => ⟨S512x256, .f32⟩
  | .hbm, ⟨44, _⟩ => ⟨S286x128, .f32⟩
  | .hbm, ⟨45, _⟩ => ⟨S1x128, .f32⟩
  | .hbm, ⟨46, _⟩ => ⟨S1x30, .f32⟩
  | .hbm, ⟨47, _⟩ => ⟨S1x128, .f32⟩
  | .hbm, ⟨48, _⟩ => ⟨S64x256, .f32⟩
  | .hbm, ⟨49, _⟩ => ⟨S1x256, .f32⟩
  | .hbm, ⟨50, _⟩ => ⟨S64x256, .f32⟩
  | .hbm, ⟨51, _⟩ => ⟨S64x256, .f32⟩
  | .hbm, ⟨52, _⟩ => ⟨S20000x128, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S1, .i32⟩
  | .hbm, ⟨62, _⟩ => ⟨S_, .i32⟩
  | .hbm, ⟨63, _⟩ => ⟨S320000x1, .i32⟩
  | .hbm, ⟨64, _⟩ => ⟨S320000x1, .i1⟩
  | .hbm, ⟨65, _⟩ => ⟨S1x1, .i32⟩
  | .hbm, ⟨66, _⟩ => ⟨S320000x1, .i32⟩
  | .hbm, ⟨67, _⟩ => ⟨S320000x1, .i1⟩
  | .hbm, ⟨68, _⟩ => ⟨S320000x1, .i1⟩
  | .hbm, ⟨69, _⟩ => ⟨S_, .i1⟩
  | .hbm, ⟨70, _⟩ => ⟨S320000, .i1⟩
  | .hbm, ⟨71, _⟩ => ⟨S320000x128, .f32⟩
  | .hbm, ⟨72, _⟩ => ⟨S320000x128, .i1⟩
  | .hbm, ⟨73, _⟩ => ⟨S_, .f32⟩
  | .hbm, ⟨74, _⟩ => ⟨S320000x128, .f32⟩
  | .hbm, ⟨75, _⟩ => ⟨S320000x128, .f32⟩
  | .hbm, ⟨76, _⟩ => ⟨S_, .i32⟩
  | .hbm, ⟨77, _⟩ => ⟨S320000, .i32⟩
  | .hbm, ⟨78, _⟩ => ⟨S320000, .i1⟩
  | .hbm, ⟨79, _⟩ => ⟨S_, .i32⟩
  | .hbm, ⟨80, _⟩ => ⟨S320000, .i32⟩
  | .hbm, ⟨81, _⟩ => ⟨S320000, .i32⟩
  | .hbm, ⟨82, _⟩ => ⟨S320000, .i32⟩
  | .hbm, ⟨83, _⟩ => ⟨S320000x1, .i32⟩
  | .hbm, ⟨84, _⟩ => ⟨S1, .i32⟩
  | .hbm, ⟨85, _⟩ => ⟨S_, .i32⟩
  | .hbm, ⟨86, _⟩ => ⟨S320000x1, .i32⟩
  | .hbm, ⟨87, _⟩ => ⟨S320000x1, .i1⟩
  | .hbm, ⟨88, _⟩ => ⟨S1x1, .i32⟩
  | .hbm, ⟨89, _⟩ => ⟨S320000x1, .i32⟩
  | .hbm, ⟨90, _⟩ => ⟨S320000x1, .i1⟩
  | .hbm, ⟨91, _⟩ => ⟨S320000x1, .i1⟩
  | .hbm, ⟨92, _⟩ => ⟨S_, .i1⟩
  | .hbm, ⟨93, _⟩ => ⟨S320000, .i1⟩
  | .hbm, ⟨94, _⟩ => ⟨S320000x128, .f32⟩
  | .hbm, ⟨95, _⟩ => ⟨S320000x128, .i1⟩
  | .hbm, ⟨96, _⟩ => ⟨S_, .f32⟩
  | .hbm, ⟨97, _⟩ => ⟨S320000x128, .f32⟩
  | .hbm, ⟨98, _⟩ => ⟨S320000x128, .f32⟩
  | .hbm, ⟨99, _⟩ => ⟨S320000x1, .i32⟩
  | .hbm, ⟨100, _⟩ => ⟨S320000x128, .f32⟩
  | .local _ .vmem, ⟨0, _⟩ => ⟨S2000x260, .f32⟩
  | .local _ .vmem, ⟨1, _⟩ => ⟨S2000x260, .f32⟩
  | .local _ .vmem, ⟨2, _⟩ => ⟨S260x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S3200x128, .f32⟩
  | .local _ .vmem, ⟨7, _⟩ => ⟨S3200x128, .f32⟩
  | .local _ .vmem, ⟨8, _⟩ => ⟨S3200x128, .f32⟩
  | .local _ .vmem, ⟨9, _⟩ => ⟨S3200x128, .f32⟩
  | .local _ .vmem, ⟨10, _⟩ => ⟨S3200x8, .f32⟩
  | .local _ .vmem, ⟨11, _⟩ => ⟨S3200x8, .f32⟩
  | .local _ .vmem, ⟨12, _⟩ => ⟨S3200x1, .i32⟩
  | .local _ .vmem, ⟨13, _⟩ => ⟨S3200x1, .i32⟩
  | .local _ .vmem, ⟨14, _⟩ => ⟨S64x256, .f32⟩
  | .local _ .vmem, ⟨15, _⟩ => ⟨S8x30, .f32⟩
  | .local _ .vmem, ⟨16, _⟩ => ⟨S1x30, .f32⟩
  | .local _ .vmem, ⟨17, _⟩ => ⟨S286x128, .f32⟩
  | .local _ .vmem, ⟨18, _⟩ => ⟨S1x128, .f32⟩
  | .local _ .vmem, ⟨19, _⟩ => ⟨S3200x128, .f32⟩
  | .local _ .vmem, ⟨20, _⟩ => ⟨S3200x128, .f32⟩
  | _, _ => ⟨S20000x260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_c : Ref sig .tc := ⟨.hbm, 53, rfl⟩
abbrev main_call0_v0 : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_c_1 : Ref sig .tc := ⟨.hbm, 61, rfl⟩
abbrev main_call0_c_2 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_c_3 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_call0_cst : Ref sig .tc := ⟨.hbm, 73, rfl⟩
abbrev main_call0_v15 : Ref sig .tc := ⟨.hbm, 74, rfl⟩
abbrev main_v33 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S260x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x30 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x30 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S286x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S3200x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  reducesTo_S128x260_S128_d1 : S128x260.ReducesTo [1] S128
  h_S_ : 0 < S_.numel
  bcast_S128_S128x1_0 : S128.BroadcastsInDim S128x1 (![0] : Fin 1 → Fin S128x1.rank)
  bcast_S128x1_S128x260_0_1 : S128x1.BroadcastsInDim S128x260 (![0, 1] : Fin 2 → Fin S128x260.rank)
  transposes_S128x260_S260x128_1_0 : S128x260.Transposes [1, 0] S260x128
  reducesTo_S30x8_S30_d1 : S30x8.ReducesTo [1] S30
  bcast_S30_S30x1_0 : S30.BroadcastsInDim S30x1 (![0] : Fin 1 → Fin S30x1.rank)
  bcast_S30x1_S30x8_0_1 : S30x1.BroadcastsInDim S30x8 (![0, 1] : Fin 2 → Fin S30x8.rank)
  transposes_S30x8_S8x30_1_0 : S30x8.Transposes [1, 0] S8x30
  reducesTo_S256x512_S256_d1 : S256x512.ReducesTo [1] S256
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  transposes_S256x512_S512x256_1_0 : S256x512.Transposes [1, 0] S512x256
  transposes_S128x286_S286x128_1_0 : S128x286.Transposes [1, 0] S286x128
  shapeCasts_S128_S1x128 : S128.ShapeCasts S1x128
  shapeCasts_S30_S1x30 : S30.ShapeCasts S1x30
  shapeCasts_S256_S1x256 : S256.ShapeCasts S1x256
  bcast_S1x256_S64x256_0_1 : S1x256.BroadcastsInDim S64x256 (![0, 1] : Fin 2 → Fin S64x256.rank)
  inb_S2000x260_S2000x260_0_0 : ∀ a, (![0, 0] : Fin 2 → Nat) a + S2000x260.size a ≤ S2000x260.size a
  h_S2000x260 : 0 < S2000x260.numel
  bitsLt_bf16_f32 : FTy.bits .bf16 < FTy.bits .f32
  inb_S260x128_S260x128_0_0 : ∀ a, (![0, 0] : Fin 2 → Nat) a + S260x128.size a ≤ S260x128.size a
  h_S260x128 : 0 < S260x128.numel
  shapeCasts_S260x128_S260x128 : S260x128.ShapeCasts S260x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  shapeCasts_S320000_S320000x1 : S320000.ShapeCasts S320000x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x8_S3200x8_0_0 : ∀ a, (![0, 0] : Fin 2 → Nat) a + S3200x8.size a ≤ S3200x8.size a
  h_S3200x8 : 0 < S3200x8.numel
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S8x30_S8x30_0_0 : ∀ a, (![0, 0] : Fin 2 → Nat) a + S8x30.size a ≤ S8x30.size a
  h_S8x30 : 0 < S8x30.numel
  shapeCasts_S8x30_S8x30 : S8x30.ShapeCasts S8x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S3200x30 : S1x30.Broadcasts S3200x30
  iota_S3200x64_d1_w32 : S3200x64.Iotas .tc 32 [1]
  broadcasts_S3200x1_S3200x64 : S3200x1.Broadcasts S3200x64
  natLt_1_32 : 1 < 32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  slices_S3200x256_o0_0_S3200x128 : S3200x256.Slices ![0, 0] S3200x128
  slices_S3200x256_o0_128_S3200x128 : S3200x256.Slices ![0, 128] S3200x128
  concatenates_S3200x128_S3200x128_S3200x30_S3200x286_d1 : Shape.Concatenates [S3200x128, S3200x128, S3200x30] S3200x286 1
  inb_S286x128_S286x128_0_0 : ∀ a, (![0, 0] : Fin 2 → Nat) a + S286x128.size a ≤ S286x128.size a
  h_S286x128 : 0 < S286x128.numel
  shapeCasts_S286x128_S286x128 : S286x128.ShapeCasts S286x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  dot_S64x512_S512x256_S64x256_1_0_0_1_n_n_wf : DotDims.WF S64x512 S512x256 S64x256 [1] [0] [0] [1] [] []
  dot_S2000x260_S260x128_S2000x128_1_0_0_1_n_n_wf : DotDims.WF S2000x260 S260x128 S2000x128 [1] [0] [0] [1] [] []
  gather_S20000x128_S320000x1_S320000x128_1_0_n_n_0_1_1128_wf : GatherDims.WF S20000x128 S320000x1 S320000x128 [1] [0] [] [0] [] 1 ![1, 128]
  dot_S3200x8_S8x30_S3200x30_1_0_0_1_n_n_wf : DotDims.WF S3200x8 S8x30 S3200x30 [1] [0] [0] [1] [] []
  dot_S3200x64_S64x256_S3200x256_1_0_0_1_n_n_wf : DotDims.WF S3200x64 S64x256 S3200x256 [1] [0] [0] [1] [] []
  dot_S3200x286_S286x128_S3200x128_1_0_0_1_n_n_wf : DotDims.WF S3200x286 S286x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x260.size a ≤ S20000x260.size a
  hwx0_0 : ∀ i : grid0.Coords, EltTy.bits .f32 = 32 ∨ (Rect.block (s := S20000x260) S2000x260.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S260x128.size a ≤ S260x128.size a
  hwx0_1 : ∀ i : grid0.Coords, EltTy.bits .f32 = 32 ∨ (Rect.block (s := S260x128) S260x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S320000x128.size a
  hwx1_0 : ∀ i : grid1.Coords, EltTy.bits .f32 = 32 ∨ (Rect.block (s := S320000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S320000x128.size a
  hwx1_1 : ∀ i : grid1.Coords, EltTy.bits .f32 = 32 ∨ (Rect.block (s := S320000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x8.size a ≤ S320000x8.size a
  hwx1_2 : ∀ i : grid1.Coords, EltTy.bits .f32 = 32 ∨ (Rect.block (s := S320000x8) S3200x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x1.size a ≤ S320000x1.size a
  hwx1_3 : ∀ i : grid1.Coords, EltTy.bits .i32 = 32 ∨ (Rect.block (s := S320000x1) S3200x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x256.size a
  hwx1_4 : ∀ i : grid1.Coords, EltTy.bits .f32 = 32 ∨ (Rect.block (s := S64x256) S64x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x30.size a ≤ S8x30.size a
  hwx1_5 : ∀ i : grid1.Coords, EltTy.bits .f32 = 32 ∨ (Rect.block (s := S8x30) S8x30.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x30.size a ≤ S1x30.size a
  hwx1_6 : ∀ i : grid1.Coords, EltTy.bits .f32 = 32 ∨ (Rect.block (s := S1x30) S1x30.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S286x128.size a ≤ S286x128.size a
  hwx1_7 : ∀ i : grid1.Coords, EltTy.bits .f32 = 32 ∨ (Rect.block (s := S286x128) S286x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S3200x128.size a ≤ S320000x128.size a
  hwx1_9 : ∀ i : grid1.Coords, EltTy.bits .f32 = 32 ∨ (Rect.block (s := S320000x128) S3200x128.size (cc1_transform_9 i) (hinb1_9 i)).WholeWords (EltTy.packing .f32)

variable [Facts₀]

def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S2000x260_S260x128_S2000x128_1_0_0_1_n_n : DotDims S2000x260 S260x128 S2000x128 where
  lhsContracting := [1]
  rhsContracting := [0]
  lhsNonContracting := [0]
  rhsNonContracting := [1]
  lhsBatch := []
  rhsBatch := []
  wf := dot_S2000x260_S260x128_S2000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S3200x8_S8x30_S3200x30_1_0_0_1_n_n : DotDims S3200x8 S8x30 S3200x30 where
  lhsContracting := [1]
  rhsContracting := [0]
  lhsNonContracting := [0]
  rhsNonContracting := [1]
  lhsBatch := []
  rhsBatch := []
  wf := dot_S3200x8_S8x30_S3200x30_1_0_0_1_n_n_wf
def dot_S3200x64_S64x256_S3200x256_1_0_0_1_n_n : DotDims S3200x64 S64x256 S3200x256 where
  lhsContracting := [1]
  rhsContracting := [0]
  lhsNonContracting := [0]
  rhsNonContracting := [1]
  lhsBatch := []
  rhsBatch := []
  wf := dot_S3200x64_S64x256_S3200x256_1_0_0_1_n_n_wf
def dot_S3200x286_S286x128_S3200x128_1_0_0_1_n_n : DotDims S3200x286 S286x128 S3200x128 where
  lhsContracting := [1]
  rhsContracting := [0]
  lhsNonContracting := [0]
  rhsNonContracting := [1]
  lhsBatch := []
  rhsBatch := []
  wf := dot_S3200x286_S286x128_S3200x128_1_0_0_1_n_n_wf

abbrev win0_0 : Pipeline.Window sig grid0 :=
  Pipeline.Window.ofSpec (Memref.whole main_arg0) S2000x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S260x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S3200x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S3200x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31) S64x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S8x30.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x30.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S286x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S3200x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S20000x260 : Shape := ⟨2, ![20000, 260]⟩
abbrev S320000x8 : Shape := ⟨2, ![320000, 8]⟩
abbrev S64x512 : Shape := ⟨2, ![64, 512]⟩
abbrev S320000 : Shape := ⟨1, ![320000]⟩
abbrev S128x260 : Shape := ⟨2, ![128, 260]⟩
abbrev S128 : Shape := ⟨1, ![128]⟩
abbrev S30x8 : Shape := ⟨2, ![30, 8]⟩
abbrev S30 : Shape := ⟨1, ![30]⟩
abbrev S256x512 : Shape := ⟨2, ![256, 512]⟩
abbrev S256 : Shape := ⟨1, ![256]⟩
abbrev S128x286 : Shape := ⟨2, ![128, 286]⟩
abbrev S_ : Shape := ⟨0, ![]⟩
abbrev S128x1 : Shape := ⟨2, ![128, 1]⟩
abbrev S260x128 : Shape := ⟨2, ![260, 128]⟩
abbrev S20000x128 : Shape := ⟨2, ![20000, 128]⟩
abbrev S1x128 : Shape := ⟨2, ![1, 128]⟩
abbrev S320000x1 : Shape := ⟨2, ![320000, 1]⟩
abbrev S320000x128 : Shape := ⟨2, ![320000, 128]⟩
abbrev S320000x256 : Shape := ⟨2, ![320000, 256]⟩
abbrev S30x1 : Shape := ⟨2, ![30, 1]⟩
abbrev S8x30 : Shape := ⟨2, ![8, 30]⟩
abbrev S320000x30 : Shape := ⟨2, ![320000, 30]⟩
abbrev S1x30 : Shape := ⟨2, ![1, 30]⟩
abbrev S320000x286 : Shape := ⟨2, ![320000, 286]⟩
abbrev S256x1 : Shape := ⟨2, ![256, 1]⟩
abbrev S512x256 : Shape := ⟨2, ![512, 256]⟩
abbrev S64x256 : Shape := ⟨2, ![64, 256]⟩
abbrev S1x256 : Shape := ⟨2, ![1, 256]⟩
abbrev S286x128 : Shape := ⟨2, ![286, 128]⟩

abbrev nBuf : Space → Nat
  | .hbm => 129
  | .vmem => 0
  | .smem => 0
  | _ => 0

abbrev hbmTy0_0 (i : Nat) : BufTy := match i % 128 with
  | 0 => ⟨S20000x260, .f32⟩
  | 1 => ⟨S320000x8, .f32⟩
  | 2 => ⟨S64x512, .f32⟩
  | 3 => ⟨S320000, .i32⟩
  | 4 => ⟨S320000, .i32⟩
  | 5 => ⟨S320000, .i32⟩
  | 6 => ⟨S128x260, .f32⟩
  | 7 => ⟨S128, .f32⟩
  | 8 => ⟨S128, .f32⟩
  | 9 => ⟨S30x8, .f32⟩
  | 10 => ⟨S30, .f32⟩
  | 11 => ⟨S30, .f32⟩
  | 12 => ⟨S256x512, .f32⟩
  | 13 => ⟨S256, .f32⟩
  | 14 => ⟨S256, .f32⟩
  | 15 => ⟨S128x286, .f32⟩
  | 16 => ⟨S128, .f32⟩
  | 17 => ⟨S128x260, .f32⟩
  | 18 => ⟨S_, .f32⟩
  | 19 => ⟨S128, .f32⟩
  | 20 => ⟨S128, .f32⟩
  | 21 => ⟨S128, .f32⟩
  | 22 => ⟨S128x1, .f32⟩
  | 23 => ⟨S128x260, .f32⟩
  | 24 => ⟨S128x260, .f32⟩
  | 25 => ⟨S260x128, .f32⟩
  | 26 => ⟨S20000x128, .f32⟩
  | 27 => ⟨S1x128, .f32⟩
  | 28 => ⟨S20000x128, .f32⟩
  | 29 => ⟨S20000x128, .f32⟩
  | 30 => ⟨S_, .f32⟩
  | 31 => ⟨S20000x128, .f32⟩
  | 32 => ⟨S20000x128, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x128, .f32⟩
  | 51 => ⟨S320000x256, .f32⟩
  | 52 => ⟨S30x8, .f32⟩
  | 53 => ⟨S_, .f32⟩
  | 54 => ⟨S30, .f32⟩
  | 55 => ⟨S30, .f32⟩
  | 56 => ⟨S30, .f32⟩
  | 57 => ⟨S30x1, .f32⟩
  | 58 => ⟨S30x8, .f32⟩
  | 59 => ⟨S30x8, .f32⟩
  | 60 => ⟨S8x30, .f32⟩
  | 61 => ⟨S320000x30, .f32⟩
  | 62 => ⟨S1x30, .f32⟩
  | 63 => ⟨S320000x30, .f32⟩
  | 64 => ⟨S320000x30, .f32⟩
  | 65 => ⟨S_, .f32⟩
  | 66 => ⟨S320000x30, .f32⟩
  | 67 => ⟨S320000x30, .f32⟩
  | 68 => ⟨S320000x286, .f32⟩
  | 69 => ⟨S256x512, .f32⟩
  | 70 => ⟨S_, .f32⟩
  | 71 => ⟨S256, .f32⟩
  | 72 => ⟨S256, .f32⟩
  | 73 => ⟨S256, .f32⟩
  | 74 => ⟨S256x1, .f32⟩
  | 75 => ⟨S256x512, .f32⟩
  | 76 => ⟨S256x512, .f32⟩
  | 77 => ⟨S512x256, .f32⟩
  | 78 => ⟨S64x256, .f32⟩
  | 79 => ⟨S1x256, .f32⟩
  | 80 => ⟨S64x256, .f32⟩
  | 81 => ⟨S64x256, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x256, .f32⟩
  | 91 => ⟨S320000x128, .f32⟩
  | 92 => ⟨S_, .f32⟩
  | 93 => ⟨S320000x128, .f32⟩
  | 94 => ⟨S320000x128, .f32⟩
  | 95 => ⟨S320000x128, .f32⟩
  | 96 => ⟨S286x128, .f32⟩
  | 97 => ⟨S320000x128, .f32⟩
  | 98 => ⟨S1x128, .f32⟩
  | 99 => ⟨S320000x128, .f32⟩
  | 100 => ⟨S320000x128, .f32⟩
  | 101 => ⟨S_, .f32⟩
  | 102 => ⟨S320000, .f32⟩
  | 103 => ⟨S320000x1, .f32⟩
  | 104 => ⟨S_, .f32⟩
  | 105 => ⟨S320000x1, .f32⟩
  | 106 => ⟨S320000x1, .f32⟩
  | 107 => ⟨S320000x128, .f32⟩
  | 108 => ⟨S320000x128, .f32⟩
  | 109 => ⟨S320000x128, .f32⟩
  | 110 => ⟨S_, .f32⟩
  | 111 => ⟨S320000, .f32⟩
  | 112 => ⟨S320000x1, .f32⟩
  | 113 => ⟨S_, .f32⟩
  | 114 => ⟨S320000x1, .f32⟩
  | 115 => ⟨S320000x1, .f32⟩
  | 116 => ⟨S320000x128, .f32⟩
  | 117 => ⟨S320000x128, .f32⟩
  | 118 => ⟨S_, .f32⟩
  | 119 => ⟨S320000x1, .f32⟩
  | 120 => ⟨S320000x1, .f32⟩
  | 121 => ⟨S320000x1, .f32⟩
  | 122 => ⟨S320000x128, .f32⟩
  | 123 => ⟨S320000x128, .f32⟩
  | 124 => ⟨S320000x128, .f32⟩
  | 125 => ⟨S320000x128, .f32⟩
  | 126 => ⟨S_, .f32⟩
  | 127 => ⟨S320000x128, .f32⟩
  | _ => ⟨S20000x260, .f32⟩

abbrev hbmTy0_1 (i : Nat) : BufTy := match i % 128 with
  | 0 => ⟨S320000x128, .f32⟩
  | _ => ⟨S20000x260, .f32⟩

abbrev hbmTy (i : Nat) : BufTy := match i / 128 with
  | 0 => hbmTy0_0 i
  | 1 => hbmTy0_1 i
  | _ => ⟨S20000x260, .f32⟩

abbrev bufTy : (tb : Table) → Fin (tcTables nBuf tb) → BufTy
  | .hbm, ⟨i, _⟩ => hbmTy i
  | _, _ => ⟨S20000x260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_cst : Ref sig .tc := ⟨.hbm, 30, rfl⟩
abbrev main_call1_v0 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call2_v0 : Ref sig .tc := ⟨.hbm, 52, rfl⟩
abbrev main_call2_cst : Ref sig .tc := ⟨.hbm, 53, rfl⟩
abbrev main_call2_v1 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call3_cst : Ref sig .tc := ⟨.hbm, 65, rfl⟩
abbrev main_call3_v0 : Ref sig .tc := ⟨.hbm, 66, rfl⟩
abbrev main_v36 : Ref sig .tc := ⟨.hbm, 67, rfl⟩
abbrev main_v37 : Ref sig .tc := ⟨.hbm, 68, rfl⟩
abbrev main_call4_v0 : Ref sig .tc := ⟨.hbm, 69, rfl⟩
abbrev main_call4_cst : Ref sig .tc := ⟨.hbm, 70, rfl⟩
abbrev main_call4_v1 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_3 : Ref sig .tc := ⟨.hbm, 82, rfl⟩
abbrev main_v48 : Ref sig .tc := ⟨.hbm, 83, rfl⟩
abbrev main_v49 : Ref sig .tc := ⟨.hbm, 84, rfl⟩
abbrev main_c_4 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_5 : Ref sig .tc := ⟨.hbm, 101, rfl⟩
abbrev main_v64 : Ref sig .tc := ⟨.hbm, 102, rfl⟩
abbrev main_v65 : Ref sig .tc := ⟨.hbm, 103, rfl⟩
abbrev main_cst_6 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_7 : Ref sig .tc := ⟨.hbm, 110, rfl⟩
abbrev main_v71 : Ref sig .tc := ⟨.hbm, 111, rfl⟩
abbrev main_v72 : Ref sig .tc := ⟨.hbm, 112, rfl⟩
abbrev main_cst_8 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_9 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call5_cst : Ref sig .tc := ⟨.hbm, 126, rfl⟩
abbrev main_call5_v0 : Ref sig .tc := ⟨.hbm, 127, rfl⟩
abbrev main_v84 : Ref sig .tc := ⟨.hbm, 128, rfl⟩

abbrev nD : Nat := 1
abbrev τ : Topo := Topo.v7x

variable {F : FTy → Type} [FloatOps F]

class Facts₀ : Prop where
  reducesTo_S128x260_S128_d1 : S128x260.ReducesTo [1] S128
  h_S_ : 0 < S_.numel
  bcast_S128_S128x1_0 : S128.BroadcastsInDim S128x1 (![0] : Fin 1 → Fin S128x1.rank)
  bcast_S128x1_S128x260_0_1 : S128x1.BroadcastsInDim S128x260 (![0, 1] : Fin 2 → Fin S128x260.rank)
  transposes_S128x260_S260x128_1_0 : S128x260.Transposes [1, 0] S260x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  reducesTo_S30x8_S30_d1 : S30x8.ReducesTo [1] S30
  bcast_S30_S30x1_0 : S30.BroadcastsInDim S30x1 (![0] : Fin 1 → Fin S30x1.rank)
  bcast_S30x1_S30x8_0_1 : S30x1.BroadcastsInDim S30x8 (![0, 1] : Fin 2 → Fin S30x8.rank)
  transposes_S30x8_S8x30_1_0 : S30x8.Transposes [1, 0] S8x30
  bcast_S30_S1x30_1 : S30.BroadcastsInDim S1x30 (![1] : Fin 1 → Fin S1x30.rank)
  bcast_S1x30_S320000x30_0_1 : S1x30.BroadcastsInDim S320000x30 (![0, 1] : Fin 2 → Fin S320000x30.rank)
  bcast_S_S320000x30 : S_.BroadcastsInDim S320000x30 (![] : Fin 0 → Fin S320000x30.rank)
  concatenates_S320000x256_S320000x30_S320000x286_d1 : Shape.Concatenates [S320000x256, S320000x30] S320000x286 1
  reducesTo_S256x512_S256_d1 : S256x512.ReducesTo [1] S256
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  transposes_S256x512_S512x256_1_0 : S256x512.Transposes [1, 0] S512x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  slices_S320000x256_S320000x128_0_0 : S320000x256.Slices ![0, 0] S320000x128
  bcast_S_S320000x128 : S_.BroadcastsInDim S320000x128 (![] : Fin 0 → Fin S320000x128.rank)
  slices_S320000x256_S320000x128_0_128 : S320000x256.Slices ![0, 128] S320000x128
  transposes_S128x286_S286x128_1_0 : S128x286.Transposes [1, 0] S286x128
  bcast_S1x128_S320000x128_0_1 : S1x128.BroadcastsInDim S320000x128 (![0, 1] : Fin 2 → Fin S320000x128.rank)
  reducesTo_S320000x128_S320000_d1 : S320000x128.ReducesTo [1] S320000
  bcast_S_S320000x1 : S_.BroadcastsInDim S320000x1 (![] : Fin 0 → Fin S320000x1.rank)
  bcast_S320000x1_S320000x128_0_1 : S320000x1.BroadcastsInDim S320000x128 (![0, 1] : Fin 2 → Fin S320000x128.rank)
  dot_S20000x260_S260x128_S20000x128_1_0_0_1_n_n_wf : DotDims.WF S20000x260 S260x128 S20000x128 [1] [0] [0] [1] [] []
  gather_S20000x128_S320000x1_S320000x128_1_0_n_n_0_1_1128_wf : GatherDims.WF S20000x128 S320000x1 S320000x128 [1] [0] [] [0] [] 1 ![1, 128]
  dot_S320000x8_S8x30_S320000x30_1_0_0_1_n_n_wf : DotDims.WF S320000x8 S8x30 S320000x30 [1] [0] [0] [1] [] []
  dot_S64x512_S512x256_S64x256_1_0_0_1_n_n_wf : DotDims.WF S64x512 S512x256 S64x256 [1] [0] [0] [1] [] []
  gather_S64x256_S320000x1_S320000x256_1_0_n_n_0_1_1256_wf : GatherDims.WF S64x256 S320000x1 S320000x256 [1] [0] [] [0] [] 1 ![1, 256]
  dot_S320000x286_S286x128_S320000x128_1_0_0_1_n_n_wf : DotDims.WF S320000x286 S286x128 S320000x128 [1] [0] [0] [1] [] []

variable [Facts₀]

def dot_S20000x260_S260x128_S20000x128_1_0_0_1_n_n : DotDims S20000x260 S260x128 S20000x128 where
  lhsContracting := [1]
  rhsContracting := [0]
  lhsNonContracting := [0]
  rhsNonContracting := [1]
  lhsBatch := []
  rhsBatch := []
  wf := dot_S20000x260_S260x128_S20000x128_1_0_0_1_n_n_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x8_S8x30_S320000x30_1_0_0_1_n_n : DotDims S320000x8 S8x30 S320000x30 where
  lhsContracting := [1]
  rhsContracting := [0]
  lhsNonContracting := [0]
  rhsNonContracting := [1]
  lhsBatch := []
  rhsBatch := []
  wf := dot_S320000x8_S8x30_S320000x30_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def gather_S64x256_S320000x1_S320000x256_1_0_n_n_0_1_1256 : GatherDims S64x256 S320000x1 S320000x256 where
  offsetDims := [1]
  collapsedSliceDims := [0]
  operandBatchingDims := []
  startIndicesBatchingDims := []
  startIndexMap := [0]
  indexVectorDim := 1
  sliceSizes := ![1, 256]
  wf := gather_S64x256_S320000x1_S320000x256_1_0_n_n_0_1_1256_wf
def dot_S320000x286_S286x128_S320000x128_1_0_0_1_n_n : DotDims S320000x286 S286x128 S320000x128 where
  lhsContracting := [1]
  rhsContracting := [0]
  lhsNonContracting := [0]
  rhsNonContracting := [1]
  lhsBatch := []
  rhsBatch := []
  wf := dot_S320000x286_S286x128_S320000x128_1_0_0_1_n_n_wf

class Facts : Prop extends Facts₀ where

variable [Facts]
-- ==== Proof.Spec.lean ====
/-
  The mathematics both programs compute, entry by entry, over the extended reals.

  A node's feature row is projected by a weight matrix, shifted by a bias and rectified (`nodeRow`). For an edge, the
  projected rows of its two end nodes and a rectified projection of its geometry (`geo`) are laid side by side
  (`join`: 128 + 128 + 30 entries), mapped by the FiLM linear layer (`film`), normalised over the 128 output
  channels with no affine part, and then scaled and shifted by the conditioning row of the edge's graph and rectified
  (`normFilm`). The conditioning row is row `b` of a 64-row table; the kernel selects it by a product with the
  indicator row of `b` (`onehotRow`), the reference reads row `b` directly (`rowOf`): for `0 ≤ b < 64` the two
  agree (`onehotRow_eq`).
-/
import Idealize.ShloMosaic.PureOps.Ideal
import Idealize.ShloMosaic.Lib.ValueIdx

noncomputable section

open scoped BigOperators

namespace Cert.Spec

open Idealize.ShloMosaic

/-- The float patterns the two programs share, read as extended reals (never evaluated: the same word on both sides). -/
abbrev cZero : EReal := Ideal.ofBits .f32 0x00000000#32
abbrev cOne : EReal := Ideal.ofBits .f32 0x3F800000#32
abbrev c128 : EReal := Ideal.ofBits .f32 0x43000000#32
abbrev cEps : EReal := Ideal.ofBits .f32 0x3727C5AC#32

/-- Row `w` of an `N`-row table, the word read signed and clamped into `[0, N - 1]`. -/
def rowOf (N : Nat) (hN : 0 < N) (w : BitVec 32) : Fin N := ⟨min w.toInt.toNat (N - 1), by omega⟩

/-- The word, read signed, names a row of an `N`-row table. -/
def InRange (N : Nat) (w : BitVec 32) : Prop := 0 ≤ w.toInt ∧ w.toInt < (N : Int)

/-- One entry of a projected, shifted and rectified row: `max (∑ₖ xₖ · wₖⱼ + bⱼ) 0`. -/
def nodeRow (x : Fin 260 → EReal) (wT : Fin 260 → Fin 128 → EReal) (b : Fin 128 → EReal) (j : Fin 128) : EReal :=
  max ((∑ k : Fin 260, x k * wT k j) + b j) cZero

/-- One entry of the rectified geometry projection: `max (∑ₖ gₖ · wₖq + bq) 0`. -/
def geo (eg : Fin 8 → EReal) (wgT : Fin 8 → Fin 30 → EReal) (gb : Fin 30 → EReal) (q : Fin 30) : EReal :=
  max ((∑ k : Fin 8, eg k * wgT k q) + gb q) cZero

/-- The joined row: the source node's 128 entries, then the target node's 128, then the 30 geometry entries. -/
def join (hs hd : Fin 128 → EReal) (g : Fin 30 → EReal) (k : Fin 286) : EReal :=
  if h : k.val < 128 then hs ⟨k.val, h⟩
  else if h2 : k.val < 256 then hd ⟨k.val - 128, by omega⟩
  else g ⟨k.val - 256, by omega⟩

/-- One entry of the FiLM linear layer: `∑ₖ joinₖ · wₖⱼ + bⱼ`. -/
def film (jn : Fin 286 → EReal) (fwT : Fin 286 → Fin 128 → EReal) (fb : Fin 128 → EReal) (j : Fin 128) : EReal :=
  (∑ k : Fin 286, jn k * fwT k j) + fb j

/-- The mean of a row of 128 entries. -/
def mean (y : Fin 128 → EReal) : EReal := Ideal.div (∑ q : Fin 128, y q) c128

/-- The mean of the squared deviations of a row of 128 entries. -/
def variance (y : Fin 128 → EReal) : EReal := Ideal.div (∑ q : Fin 128, (y q - mean y) * (y q - mean y)) c128

/-- Normalisation of the row, the FiLM scale and shift, the rectifier: one entry. -/
def normFilm (y gam bet : Fin 128 → EReal) (j : Fin 128) : EReal :=
  max (gam j * ((y j - mean y) * Ideal.rsqrt (variance y + cEps)) + bet j) cZero

/-- A table's row selected by a product with the indicator row of the word `w`. -/
def onehotRow (w : BitVec 32) (GB : Fin 64 → Fin 256 → EReal) (c : Fin 256) : EReal :=
  ∑ k : Fin 64, (if w = BitVec.ofNat 32 k.val then (1 : EReal) else 0) * GB k c

/-- One entry of an edge's output row, from its end nodes' projected rows, its geometry row and its conditioning row. -/
def edge (hs hd : Fin 128 → EReal) (eg : Fin 8 → EReal) (gbrow : Fin 256 → EReal)
    (wgT : Fin 8 → Fin 30 → EReal) (gb : Fin 30 → EReal) (fwT : Fin 286 → Fin 128 → EReal) (fb : Fin 128 → EReal)
    (j : Fin 128) : EReal :=
  normFilm (film (join hs hd (geo eg wgT gb)) fwT fb)
    (fun q => gbrow ⟨q.val, by omega⟩ + cOne) (fun q => gbrow ⟨128 + q.val, by omega⟩) j

/-- One entry of the conditioning table: `∑_q cond(k,q) · w(q,c) + b(c)`. -/
def gbAt (cond : (⟨2, ![64, 512]⟩ : Shape).Idx → EReal) (wcT : (⟨2, ![512, 256]⟩ : Shape).Idx → EReal)
    (cb : (⟨1, ![256]⟩ : Shape).Idx → EReal) (k : Fin 64) (c : Fin 256) : EReal :=
  (∑ q : Fin 512, cond (ValueIdx.ix2 k q) * wcT (ValueIdx.ix2 q c)) + cb (ValueIdx.ix1 c)

/-- Entry `(e, j)` of the result, from the argument arrays and the four weight matrices as the host prepares them
    (weight-normed and transposed: the same host operations in both programs, never opened). -/
def resultAt (x0 : (⟨2, ![20000, 260]⟩ : Shape).Idx → EReal) (x1 : (⟨2, ![320000, 8]⟩ : Shape).Idx → EReal)
    (x2 : (⟨2, ![64, 512]⟩ : Shape).Idx → EReal) (x3 x4 x5 : (⟨1, ![320000]⟩ : Shape).Idx → BitVec 32)
    (wnT : (⟨2, ![260, 128]⟩ : Shape).Idx → EReal) (nb : (⟨1, ![128]⟩ : Shape).Idx → EReal)
    (wgT : (⟨2, ![8, 30]⟩ : Shape).Idx → EReal) (gb : (⟨1, ![30]⟩ : Shape).Idx → EReal)
    (wcT : (⟨2, ![512, 256]⟩ : Shape).Idx → EReal) (cb : (⟨1, ![256]⟩ : Shape).Idx → EReal)
    (fwT : (⟨2, ![286, 128]⟩ : Shape).Idx → EReal) (fb : (⟨1, ![128]⟩ : Shape).Idx → EReal)
    (e : Fin 320000) (j : Fin 128) : EReal :=
  edge
    (nodeRow (fun q => x0 (ValueIdx.ix2 (rowOf 20000 (by decide) (x3 (ValueIdx.ix1 e))) q)) (fun q j' => wnT (ValueIdx.ix2 q j')) (fun j' => nb (ValueIdx.ix1 j')))
    (nodeRow (fun q => x0 (ValueIdx.ix2 (rowOf 20000 (by decide) (x4 (ValueIdx.ix1 e))) q)) (fun q j' => wnT (ValueIdx.ix2 q j')) (fun j' => nb (ValueIdx.ix1 j')))
    (fun k => x1 (ValueIdx.ix2 e k))
    (gbAt x2 wcT cb (rowOf 64 (by decide) (x5 (ValueIdx.ix1 e))))
    (fun k q => wgT (ValueIdx.ix2 k q)) (fun q => gb (ValueIdx.ix1 q))
    (fun k j' => fwT (ValueIdx.ix2 k j')) (fun j' => fb (ValueIdx.ix1 j')) j

/-- The result array: `resultAt` at every entry. -/
def result (x0 : (⟨2, ![20000, 260]⟩ : Shape).Idx → EReal) (x1 : (⟨2, ![320000, 8]⟩ : Shape).Idx → EReal)
    (x2 : (⟨2, ![64, 512]⟩ : Shape).Idx → EReal) (x3 x4 x5 : (⟨1, ![320000]⟩ : Shape).Idx → BitVec 32)
    (wnT : (⟨2, ![260, 128]⟩ : Shape).Idx → EReal) (nb : (⟨1, ![128]⟩ : Shape).Idx → EReal)
    (wgT : (⟨2, ![8, 30]⟩ : Shape).Idx → EReal) (gb : (⟨1, ![30]⟩ : Shape).Idx → EReal)
    (wcT : (⟨2, ![512, 256]⟩ : Shape).Idx → EReal) (cb : (⟨1, ![256]⟩ : Shape).Idx → EReal)
    (fwT : (⟨2, ![286, 128]⟩ : Shape).Idx → EReal) (fb : (⟨1, ![128]⟩ : Shape).Idx → EReal) :
    (⟨2, ![320000, 128]⟩ : Shape).Idx → EReal :=
  fun i => resultAt x0 x1 x2 x3 x4 x5 wnT nb wgT gb wcT cb fwT fb ⟨(i 0).val, ValueIdx.idx2_lt0 i⟩ ⟨(i 1).val, ValueIdx.idx2_lt1 i⟩

/-- Two arrays that agree at every `(e, j)` are equal. -/
theorem ext2 {a b : Nat} {α : Type} (f g : (⟨2, ![a, b]⟩ : Shape).Idx → α)
    (h : ∀ (p : Fin a) (q : Fin b), f (ValueIdx.ix2 p q) = g (ValueIdx.ix2 p q)) : f = g := by
  funext i
  have e : i = ValueIdx.ix2 (⟨(i 0).val, ValueIdx.idx2_lt0 i⟩ : Fin a) (⟨(i 1).val, ValueIdx.idx2_lt1 i⟩ : Fin b) := by
    funext d
    match d with
    | ⟨0, _⟩ => rfl
    | ⟨1, _⟩ => rfl
  rw [e]
  exact h _ _

theorem result_apply (x0 : (⟨2, ![20000, 260]⟩ : Shape).Idx → EReal) (x1 : (⟨2, ![320000, 8]⟩ : Shape).Idx → EReal)
    (x2 : (⟨2, ![64, 512]⟩ : Shape).Idx → EReal) (x3 x4 x5 : (⟨1, ![320000]⟩ : Shape).Idx → BitVec 32)
    (wnT : (⟨2, ![260, 128]⟩ : Shape).Idx → EReal) (nb : (⟨1, ![128]⟩ : Shape).Idx → EReal)
    (wgT : (⟨2, ![8, 30]⟩ : Shape).Idx → EReal) (gb : (⟨1, ![30]⟩ : Shape).Idx → EReal)
    (wcT : (⟨2, ![512, 256]⟩ : Shape).Idx → EReal) (cb : (⟨1, ![256]⟩ : Shape).Idx → EReal)
    (fwT : (⟨2, ![286, 128]⟩ : Shape).Idx → EReal) (fb : (⟨1, ![128]⟩ : Shape).Idx → EReal) (e : Fin 320000) (j : Fin 128) :
    result x0 x1 x2 x3 x4 x5 wnT nb wgT gb wcT cb fwT fb (ValueIdx.ix2 e j)
      = resultAt x0 x1 x2 x3 x4 x5 wnT nb wgT gb wcT cb fwT fb e j := rfl

/-- A word in `[0, N)` names its own row. -/
theorem rowOf_val (N : Nat) (hN : 0 < N) (w : BitVec 32) (h : InRange N w) :
    (rowOf N hN w).val = w.toInt.toNat := by
  obtain ⟨h0, h1⟩ := h
  unfold rowOf
  show min w.toInt.toNat (N - 1) = w.toInt.toNat
  omega

end Cert.Spec

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.NodePayload.lean ====
/-
  The node kernel's body at one entry of its block: row `r` of the 2000-row block of node features times the
  weight matrix, plus the bias row, rectified — `Spec.nodeRow` of that row.
-/
import proofs.«414055_j42691974922540_1_alg».proof.Proof.Gen.KernelIdeal.Frame
import proofs.«414055_j42691974922540_1_alg».proof.Proof.Spec
import proofs.«414055_j42691974922540_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen

/-- What the node kernel leaves at entry `(r, j)` of its output block, from its three input blocks. -/
theorem out0_3_apply (x0 : Vec Ideal S2000x260 .f32) (x1 : Vec Ideal S260x128 .f32) (x2 : Vec Ideal S1x128 .f32)
    (r : Fin 2000) (j : Fin 128) :
    (out0_3 (F := Ideal) x0 x1 x2 : S2000x128.Idx → EReal) (ix2 r j)
      = Cert.Spec.nodeRow (fun k => (x0 : S2000x260.Idx → EReal) (ix2 r k)) (fun k j' => (x1 : S260x128.Idx → EReal) (ix2 k j'))
          (fun j' => (x2 : S1x128.Idx → EReal) (ix2 0 j')) j := by
  -- the one store and the three loads are through whole-block rectangles at offset zero
  have hz : (![0, 0] : Fin 2 → Nat) = fun _ => 0 := by
    funext a
    match a with
    | ⟨0, _⟩ => rfl
    | ⟨1, _⟩ => rfl
  unfold out0_3
  rw [View.canon_unit_zero hz]
  simp only [View.ld_unit_zero (S := S2000x260) hz, View.ld_unit_zero (S := S260x128) hz, View.ld_unit_zero (S := S1x128) hz]
  unfold k0_pay1
  rw [maximumf_apply, addf_apply, broadcast_apply]
  -- the product into the zero accumulator at (r, j) is the sum over the 260 contracted positions
  have hm := Cert.Lib.PlainProduct.matmul_zero_apply (D := dot_S2000x260_S260x128_S2000x128_1_0_0_1_n_n)
    ⟨rfl, rfl, rfl, rfl, rfl, rfl⟩ none (truncf .bf16 x0 bitsLt_bf16_f32)
    (truncf .bf16 (shapeCast S260x128 x1 shapeCasts_S260x128_S260x128) bitsLt_bf16_f32) r j
  -- the bias row broadcast over the 2000 rows reads its one row at column j
  have hb := broadcastTo_1b_ab_apply (shapeCast S1x128 x2 shapeCasts_S1x128_S1x128) broadcasts_S1x128_S2000x128 r j
  refine (congrArg₂ max (congrArg₂ (· + ·) hm hb) rfl).trans ?_
  -- over the extended reals the narrowing is the identity, and a reshape to the same shape changes nothing
  simp only [shapeCast_self, truncf_apply]
  unfold Cert.Spec.nodeRow
  rfl

end Cert.KernelIdeal.Hand

end
-- ==== Proof.NodeValue.lean ====
/-
  From the node kernel's blocks to its result array: grid point `t` writes rows `2000 t … 2000 t + 1999`, each
  entry the rectified projection of the matching row of the feature array, and the ten blocks tile the 20000 rows.
-/
import proofs.«414055_j42691974922540_1_alg».proof.Proof.NodePayload

set_option maxRecDepth 16384

noncomputable section

open scoped BigOperators
open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The result array as one function of the arrays the region finds: entry `(n, j)` is the rectified projection of
    row `n` of the feature array. -/
private def nodeArr (c : Dev nD) : S20000x128.Idx → EReal := fun i =>
  Cert.Spec.nodeRow (fun k => (V c main_arg0 : S20000x260.Idx → EReal) (ix2 (⟨(i 0).val, idx2_lt0 i⟩ : Fin 20000) k))
    (fun k j' => (V c main_v7 : S260x128.Idx → EReal) (ix2 k j'))
    (fun j' => (V c main_v25 : S1x128.Idx → EReal) (ix2 0 j')) (⟨(i 1).val, idx2_lt1 i⟩ : Fin 128)

/-- Where each window's block sits at grid point `t`: the feature rows and the result rows move with `t`, the weight
    matrix and the bias row stay at block `(0, 0)`. -/
private theorem node_block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the feature block at point `t` is row `2000 t + r` of the feature array. -/
private theorem node_feat_block (c : Dev nD) (t : Fin cfg0.N) (r : Fin 2000) (k : Fin 260) (n : Fin 20000)
    (hn : n.val = t.val * 2000 + r.val) :
    (iblk0 (F := Ideal) V c 0 t : S2000x260.Idx → EReal) (ix2 r k) = (V c main_arg0 : S20000x260.Idx → EReal) (ix2 n k) := by
  obtain ⟨e0, e1, -⟩ := node_block_index t
  unfold iblk0
  rw [View.read_apply]
  show V c main_arg0 _ = V c main_arg0 _
  congr 1
  funext a
  apply Fin.ext
  match a with
  | ⟨0, _⟩ => show win0_0.index t (0 : Fin 2) * 2000 + 1 * r.val = n.val; omega
  | ⟨1, _⟩ => show win0_0.index t (1 : Fin 2) * 260 + 1 * k.val = k.val; omega

/-- The weight block at any point is the weight matrix. -/
private theorem node_weight_block (c : Dev nD) (t : Fin cfg0.N) (k : Fin 260) (j : Fin 128) :
    (iblk0 (F := Ideal) V c 1 t : S260x128.Idx → EReal) (ix2 k j) = (V c main_v7 : S260x128.Idx → EReal) (ix2 k j) := by
  obtain ⟨-, -, e0, e1, -⟩ := node_block_index t
  unfold iblk0
  rw [View.read_apply]
  show V c main_v7 _ = V c main_v7 _
  congr 1
  funext a
  apply Fin.ext
  match a with
  | ⟨0, _⟩ => show win0_1.index t (0 : Fin 2) * 260 + 1 * k.val = k.val; omega
  | ⟨1, _⟩ => show win0_1.index t (1 : Fin 2) * 128 + 1 * j.val = j.val; omega

/-- The bias block at any point is the bias row. -/
private theorem node_bias_block (c : Dev nD) (t : Fin cfg0.N) (j : Fin 128) :
    (iblk0 (F := Ideal) V c 2 t : S1x128.Idx → EReal) (ix2 0 j) = (V c main_v25 : S1x128.Idx → EReal) (ix2 0 j) := by
  obtain ⟨-, -, -, -, e0, e1, -⟩ := node_block_index t
  unfold iblk0
  rw [View.read_apply]
  show V c main_v25 _ = V c main_v25 _
  congr 1
  funext a
  apply Fin.ext
  match a with
  | ⟨0, _⟩ => show win0_2.index t (0 : Fin 2) * 1 + 1 * 0 = 0; omega
  | ⟨1, _⟩ => show win0_2.index t (1 : Fin 2) * 128 + 1 * j.val = j.val; omega

/-- `nodeRow` depends only on the entries it reads. -/
private theorem nodeRow_congr {x x' : Fin 260 → EReal} {wT wT' : Fin 260 → Fin 128 → EReal} {b b' : Fin 128 → EReal}
    (hx : ∀ k, x k = x' k) (hw : ∀ k j, wT k j = wT' k j) (hb : ∀ j, b j = b' j) (j : Fin 128) :
    Cert.Spec.nodeRow x wT b j = Cert.Spec.nodeRow x' wT' b' j := by
  have ex : x = x' := funext hx
  have ew : wT = wT' := funext fun k => funext (hw k)
  have eb : b = b' := funext hb
  rw [ex, ew, eb]

/-- `nodeArr` at an index whose coordinates are `n` and `j`. -/
private theorem nodeArr_at (c : Dev nD) (i : S20000x128.Idx) (n : Fin 20000) (j : Fin 128) (h0 : (i 0).val = n.val) (h1 : (i 1).val = j.val) :
    nodeArr V c i = Cert.Spec.nodeRow (fun k => (V c main_arg0 : S20000x260.Idx → EReal) (ix2 n k))
      (fun k j' => (V c main_v7 : S260x128.Idx → EReal) (ix2 k j'))
      (fun j' => (V c main_v25 : S1x128.Idx → EReal) (ix2 0 j')) j := by
  unfold nodeArr
  have en : (⟨(i 0).val, idx2_lt0 i⟩ : Fin 20000) = n := Fin.ext h0
  have ej : (⟨(i 1).val, idx2_lt1 i⟩ : Fin 128) = j := Fin.ext h1
  rw [en, ej]

/-- What grid point `t` writes back is block `t` of `nodeArr`. -/
private theorem node_flushed (c : Dev nD) (t : Fin cfg0.N) :
    (dat0 (F := Ideal) V c).flushed 3 t = ((cfg0.win 3).blk t).view.read (Elt Ideal) (nodeArr V c) := by
  obtain ⟨-, -, -, -, -, -, e0, e1⟩ := node_block_index t
  have ht : t.val < 10 := lt_of_lt_of_eq t.isLt (show cfg0.N = 10 from N_0)
  show (cfg0.win 3).cut (grid0.coords t) ((dat0 (F := Ideal) V c).after 3 t) = _
  rw [after0_3]
  funext y
  obtain ⟨r, q, rfl⟩ : ∃ (r : Fin 2000) (q : Fin 128), y = ix2 r q := ⟨y 0, y 1, eq_ix2 y⟩
  have hr := r.isLt
  have hn : t.val * 2000 + r.val < 20000 := by omega
  rw [View.read_apply]
  show (out0_3 (F := Ideal) (iblk0 V c 0 t) (iblk0 V c 1 t) (iblk0 V c 2 t) : S2000x128.Idx → EReal) (ix2 r q)
    = nodeArr V c (((cfg0.win 3).blk t).view.emb (ix2 r q))
  refine ((out0_3_apply _ _ _ r q).trans ?_).trans (nodeArr_at V c _ ⟨t.val * 2000 + r.val, hn⟩ q ?_ ?_).symm
  · exact nodeRow_congr (fun k => node_feat_block V c t r k _ rfl) (fun k j' => node_weight_block V c t k j')
      (fun j' => node_bias_block V c t j') q
  · show win0_3.index t (0 : Fin 2) * 2000 + 1 * r.val = t.val * 2000 + r.val; omega
  · show win0_3.index t (1 : Fin 2) * 128 + 1 * q.val = q.val; omega

/-- Row `n` of the result array lies in the block of grid point `n / 2000`, which is written back. -/
private theorem node_covered (i : S20000x128.Idx) :
    ∃ t : Fin cfg0.N, (cfg0.win 3).flush t = true ∧ i ∈ ((cfg0.win 3).blk t).view.set := by
  have h0 : (i 0).val < 20000 := idx2_lt0 i
  have h1 : (i 1).val < 128 := idx2_lt1 i
  have hN : cfg0.N = 10 := N_0
  let t : Fin cfg0.N := ⟨(i 0).val / 2000, by rw [hN]; omega⟩
  have htv : t.val = (i 0).val / 2000 := rfl
  obtain ⟨-, -, -, -, -, -, e0, e1⟩ := node_block_index t
  refine ⟨t, flush0_3 t, ?_⟩
  show i ∈ ((View.whole main_v32).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- The node region's result array, entry `(n, j)`, from the arrays the region finds. -/
theorem node_final (c : Dev nD) (n : Fin 20000) (j : Fin 128) :
    ((dat0 (F := Ideal) V c).arrAt 3 cfg0.N : S20000x128.Idx → EReal) (ix2 n j)
      = Cert.Spec.nodeRow (fun k => (V c main_arg0 : S20000x260.Idx → EReal) (ix2 n k))
          (fun k j' => (V c main_v7 : S260x128.Idx → EReal) (ix2 k j'))
          (fun j' => (V c main_v25 : S1x128.Idx → EReal) (ix2 0 j')) j := by
  have h := (dat0 (F := Ideal) V c).arrAt_eq_of_cover 3 (nodeArr V c) (fun t _ => node_flushed V c t) node_covered
  exact (congrFun h (ix2 n j)).trans (nodeArr_at V c (ix2 n j) n j rfl rfl)

end Cert.KernelIdeal.Hand

end
-- ==== Proof.EdgeJoin.lean ====
/-
  The edge kernel's FiLM product at one entry: the rectified geometry projection, the three pieces laid side by side,
  and the product of the joined row with the FiLM weight — `∑ₖ join(k) · w(k, j)`.
-/
import proofs.«414055_j42691974922540_1_alg».proof.Proof.Gen.KernelIdeal.Skeleton
import proofs.«414055_j42691974922540_1_alg».proof.Proof.Spec
import proofs.«414055_j42691974922540_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen

/-- The joined row times the FiLM weight (no bias yet), at entry `(r, j)` of the block. -/
theorem k1_pay5_apply (v0 v2 : Vec Ideal S3200x128 .f32) (v4 : Vec Ideal S3200x8 .f32) (v8 : Vec Ideal S8x30 .f32)
    (v12 : Vec Ideal S1x30 .f32) (v34 : Vec Ideal S286x128 .f32) (r : Fin 3200) (j : Fin 128) :
    (k1_pay5 (F := Ideal) v0 v2 v4 v8 v12 v34 : S3200x128.Idx → EReal) (ix2 r j)
      = ∑ k : Fin 286, Cert.Spec.join (fun k' => (v0 : S3200x128.Idx → EReal) (ix2 r k')) (fun k' => (v2 : S3200x128.Idx → EReal) (ix2 r k'))
          (Cert.Spec.geo (fun k' => (v4 : S3200x8.Idx → EReal) (ix2 r k')) (fun k' q => (v8 : S8x30.Idx → EReal) (ix2 k' q))
            (fun q => (v12 : S1x30.Idx → EReal) (ix2 0 q))) k
          * (v34 : S286x128.Idx → EReal) (ix2 k j) := by
  unfold k1_pay5
  -- the outer product at (r, j) is the sum over the 286 joined positions
  refine (Cert.Lib.PlainProduct.matmul_zero_apply ⟨rfl, rfl, rfl, rfl, rfl, rfl⟩ none _ _ r j).trans ?_
  refine Finset.sum_congr rfl fun k _ => ?_
  congr 1
  · -- the joined row at position k: the piece whose span holds k
    by_cases h1 : k.val < 128
    · unfold Cert.Spec.join
      rw [dif_pos h1]
      refine (concatenate_apply_piece (1 : Fin S3200x286.rank) _ (by exact concatenates_S3200x128_S3200x128_S3200x30_S3200x286_d1)
        (ix2 r k) 0 (by show (0 : Nat) < 3; omega) S3200x128 _ rfl rfl 0 rfl (ix2 r (⟨k.val, h1⟩ : Fin 128)) ?_ ?_).trans ?_
      · intro b
        match b with
        | ⟨0, _⟩ => exact fun _ => rfl
        | ⟨1, _⟩ => exact fun h => absurd rfl h
      · exact Nat.zero_add _
      · rw [shapeCast_self]
    · by_cases h2 : k.val < 256
      · unfold Cert.Spec.join
        rw [dif_neg h1, dif_pos h2]
        refine (concatenate_apply_piece (1 : Fin S3200x286.rank) _ (by exact concatenates_S3200x128_S3200x128_S3200x30_S3200x286_d1)
          (ix2 r k) 1 (by show (1 : Nat) < 3; omega) S3200x128 _ rfl rfl 128 rfl
          (ix2 r (⟨k.val - 128, by omega⟩ : Fin 128)) ?_ ?_).trans ?_
        · intro b
          match b with
          | ⟨0, _⟩ => exact fun _ => rfl
          | ⟨1, _⟩ => exact fun h => absurd rfl h
        · show 128 + (k.val - 128) = k.val
          omega
        · rw [shapeCast_self]
      · have h3 : k.val < 286 := k.isLt
        unfold Cert.Spec.join
        rw [dif_neg h1, dif_neg h2]
        refine (concatenate_apply_piece (1 : Fin S3200x286.rank) _ (by exact concatenates_S3200x128_S3200x128_S3200x30_S3200x286_d1)
          (ix2 r k) 2 (by show (2 : Nat) < 3; omega) S3200x30 _ rfl rfl 256 rfl
          (ix2 r (⟨k.val - 256, by omega⟩ : Fin 30)) ?_ ?_).trans ?_
        · intro b
          match b with
          | ⟨0, _⟩ => exact fun _ => rfl
          | ⟨1, _⟩ => exact fun h => absurd rfl h
        · show 256 + (k.val - 256) = k.val
          omega
        · -- the geometry piece: the rectified product with the bias row added
          unfold Cert.Spec.geo
          refine congrArg₂ max (congrArg₂ (· + ·) ?_ ?_) rfl
          · refine (Cert.Lib.PlainProduct.matmul_zero_apply ⟨rfl, rfl, rfl, rfl, rfl, rfl⟩ none _ _ r _).trans ?_
            refine Finset.sum_congr rfl fun k' _ => ?_
            congr 1
            rw [shapeCast_self]
            rfl
          · refine (broadcastTo_1b_ab_apply _ _ r _).trans ?_
            rw [shapeCast_self]
  · -- the weight factor: a cast to the same shape and a format change, both the identity
    rw [shapeCast_self]
    rfl

end Cert.KernelIdeal.Hand

end
-- ==== Proof.EdgeNorm.lean ====
/-
  The edge kernel's conditioning rows and its normalisation at one entry: the indicator product selects the
  conditioning row (its first 128 entries plus one the scale, its last 128 the shift); the FiLM output plus its bias is
  normalised over its 128 channels, scaled, shifted and rectified.
-/
import proofs.«414055_j42691974922540_1_alg».proof.Proof.Gen.KernelIdeal.Skeleton
import proofs.«414055_j42691974922540_1_alg».proof.Proof.Spec
import proofs.«414055_j42691974922540_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen

/-- A column `[a, 1]` broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The equality bit of two words, widened to 32 bits and read as a signed integer, is `1` when the words are equal and
    `0` otherwise. -/
private theorem eqBit_toReal (a b : BitVec 32) :
    ((((IntOp.cmpi .eq a b).setWidth 32).toInt : ℝ) : EReal) = if a = b then 1 else 0 := by
  by_cases h : a = b
  · subst h
    rw [if_pos rfl]
    have e1 : IntOp.cmpi .eq a a = 1#1 := by simp [IntOp.cmpi]
    rw [e1]
    have e2 : ((1#1 : BitVec 1).setWidth 32).toInt = 1 := by decide
    rw [e2]; simp
  · rw [if_neg h]
    have hbeq : (a == b) = false := beq_eq_false_iff_ne.mpr h
    have e1 : IntOp.cmpi .eq a b = 0#1 := by
      show BitVec.ofBool (a == b) = 0#1
      rw [hbeq]; rfl
    rw [e1]
    have e2 : ((0#1 : BitVec 1).setWidth 32).toInt = 0 := by decide
    rw [e2]; simp

/-- The indicator product at entry `(r, c)`: the conditioning table's row selected by the word at row `r`. -/
private theorem k1_pay2_apply (v6 : Vec Ideal S3200x1 .i32) (v24 : Vec Ideal S64x256 .f32) (r : Fin 3200) (c : Fin 256) :
    (k1_pay2 (F := Ideal) v6 v24 : S3200x256.Idx → EReal) (ix2 r c)
      = Cert.Spec.onehotRow ((v6 : S3200x1.Idx → BitVec 32) (ix2 r 0)) (fun k c => (v24 : S64x256.Idx → EReal) (ix2 k c)) c := by
  unfold k1_pay2
  refine (Cert.Lib.PlainProduct.matmul_zero_apply (D := dot_S3200x64_S64x256_S3200x256_1_0_0_1_n_n) ⟨rfl, rfl, rfl, rfl, rfl, rfl⟩ none _ _ r c).trans ?_
  unfold Cert.Spec.onehotRow
  refine Finset.sum_congr rfl fun k _ => ?_
  have hb : broadcastTo S3200x64 (shapeCast S3200x1 v6 shapeCasts_S3200x1_S3200x1) broadcasts_S3200x1_S3200x64 (ix2 r k)
      = v6 (ix2 r 0) := by
    rw [shapeCast_self]
    exact broadcastTo_a1_ab_apply v6 _ r k
  have hi : iota Kind.tc S3200x64 32 [1] iota_S3200x64_d1_w32 (ix2 r k) = BitVec.ofNat 32 k.val :=
    iota_single_apply _ _ _ _ _ _
  have hl : truncf FTy.bf16
        (sitofp (F := Ideal) FTy.f32
          (extui 32
            (cmpi CmpIPredicate.eq
              (broadcastTo S3200x64 (shapeCast S3200x1 v6 shapeCasts_S3200x1_S3200x1) broadcasts_S3200x1_S3200x64)
              (iota Kind.tc S3200x64 32 [1] iota_S3200x64_d1_w32))
            natLt_1_32))
        bitsLt_bf16_f32 (ix2 r k) = if v6 (ix2 r 0) = BitVec.ofNat 32 k.val then (1 : EReal) else 0 := by
    show ((((IntOp.cmpi .eq
        (broadcastTo S3200x64 (shapeCast S3200x1 v6 shapeCasts_S3200x1_S3200x1) broadcasts_S3200x1_S3200x64 (ix2 r k))
        (iota Kind.tc S3200x64 32 [1] iota_S3200x64_d1_w32 (ix2 r k))).setWidth 32).toInt : ℝ) : EReal) = _
    rw [hb, hi]
    exact eqBit_toReal _ _
  have hr : (truncf (F := Ideal) FTy.bf16 (shapeCast S64x256 (v24 : FVec Ideal S64x256 .f32) shapeCasts_S64x256_S64x256) bitsLt_bf16_f32 (ix2 k c) : EReal)
      = (v24 : S64x256.Idx → EReal) (ix2 k c) := by
    rw [truncf_apply, shapeCast_self]
  rw [hl, hr]

/-- The scale: entry `j` of the selected conditioning row, plus one. -/
theorem k1_pay3_apply (v6 : Vec Ideal S3200x1 .i32) (v24 : Vec Ideal S64x256 .f32) (r : Fin 3200) (j : Fin 128) :
    (k1_pay3 (F := Ideal) v6 v24 : S3200x128.Idx → EReal) (ix2 r j)
      = Cert.Spec.onehotRow ((v6 : S3200x1.Idx → BitVec 32) (ix2 r 0)) (fun k c => (v24 : S64x256.Idx → EReal) (ix2 k c)) ⟨j.val, by omega⟩
          + Cert.Spec.cOne := by
  unfold k1_pay3
  show extractStridedSlice S3200x128 ![0, 0] (k1_pay2 (F := Ideal) v6 v24) slices_S3200x256_o0_0_S3200x128 (ix2 r j)
      + Cert.Spec.cOne = _
  congr 1
  refine (slice2_axis1_apply 0 (k1_pay2 (F := Ideal) v6 v24) slices_S3200x256_o0_0_S3200x128 r j ⟨j.val, by omega⟩
    (Nat.zero_add _).symm).trans ?_
  exact k1_pay2_apply v6 v24 r _

/-- The shift: entry `128 + j` of the selected conditioning row. -/
theorem k1_pay4_apply (v6 : Vec Ideal S3200x1 .i32) (v24 : Vec Ideal S64x256 .f32) (r : Fin 3200) (j : Fin 128) :
    (k1_pay4 (F := Ideal) v6 v24 : S3200x128.Idx → EReal) (ix2 r j)
      = Cert.Spec.onehotRow ((v6 : S3200x1.Idx → BitVec 32) (ix2 r 0)) (fun k c => (v24 : S64x256.Idx → EReal) (ix2 k c)) ⟨128 + j.val, by omega⟩ := by
  unfold k1_pay4
  refine (slice2_axis1_apply 128 (k1_pay2 (F := Ideal) v6 v24) slices_S3200x256_o0_128_S3200x128 r j ⟨128 + j.val, by omega⟩
    rfl).trans ?_
  exact k1_pay2_apply v6 v24 r _

/-- The lane sum of a `[3200, 128]` block, kept as a column, at row `r`: the sum of the row's 128 entries. -/
private theorem rowSum_apply (x : FVec Ideal S3200x128 .f32) (hφ : FKind.Formats .f32)
    (hacc : (0x00000000#32 : BitVec 32) = FKind.add.neutral .f32 hφ) (r : Fin 3200) (u : Fin 1) :
    shapeCast S3200x1 (multiReduction (F := Ideal) .add [1] S3200 x 0x00000000#32 reduces_S3200x128_S3200 hφ hacc)
        shapeCasts_S3200_S3200x1 (ix2 r u)
      = ∑ q : Fin 128, x (ix2 r q) := by
  refine (shapeCast_a_a1_apply _ shapeCasts_S3200_S3200x1 r u).trans ?_
  refine (Ideal.multiReduction_add_single x 0x00000000#32 reduces_S3200x128_S3200 hφ hacc (ix1 r)).trans ?_
  refine Finset.sum_congr rfl fun q _ => congrArg x ?_
  funext a
  match a with
  | ⟨0, _⟩ => rfl
  | ⟨1, _⟩ => rfl

/-- The lane sum of a block divided by the splat of 128, as a column. -/
private def meanCol (x : FVec Ideal S3200x128 .f32) : FVec Ideal S3200x1 .f32 :=
  divf (shapeCast S3200x1 (multiReduction .add [1] S3200 x 0x00000000#32 reduces_S3200x128_S3200 (.inl rfl) rfl) shapeCasts_S3200_S3200x1)
    (broadcast S3200x1 (Scalar.ofBits .f32 0x43000000#32))

/-- At row `r` it is the row's sum over 128. -/
private theorem meanCol_apply (x : FVec Ideal S3200x128 .f32) (r : Fin 3200) (u : Fin 1) :
    meanCol x (ix2 r u) = Ideal.div (∑ q : Fin 128, x (ix2 r q)) Cert.Spec.c128 := by
  unfold meanCol
  rw [divf_apply, broadcast_apply]
  exact congrArg (fun s => Ideal.div s Cert.Spec.c128) (rowSum_apply x _ _ r u)

/-- The normalisation, the FiLM affine map and the rectifier, at entry `(r, j)` of the block. -/
theorem k1_pay1_apply (v30 v31 v37 : FVec Ideal S3200x128 .f32) (v38 : Vec Ideal S1x128 .f32) (r : Fin 3200) (j : Fin 128) :
    (k1_pay1 (F := Ideal) v30 v31 v37 v38 : S3200x128.Idx → EReal) (ix2 r j)
      = Cert.Spec.normFilm (fun q => (v37 : S3200x128.Idx → EReal) (ix2 r q) + (v38 : S1x128.Idx → EReal) (ix2 0 q))
          (fun q => (v30 : S3200x128.Idx → EReal) (ix2 r q)) (fun q => (v31 : S3200x128.Idx → EReal) (ix2 r q)) j := by
  -- the row the normalisation acts on
  generalize hy : (fun q : Fin 128 => (v37 : S3200x128.Idx → EReal) (ix2 r q) + (v38 : S1x128.Idx → EReal) (ix2 0 q)) = y
  -- the payload's pieces, named
  generalize hx : addf v37 (broadcastTo S3200x128 (shapeCast S1x128 (v38 : FVec Ideal S1x128 .f32) shapeCasts_S1x128_S1x128) broadcasts_S1x128_S3200x128) = x
  have hxq : ∀ q : Fin 128, x (ix2 r q) = y q := fun q => by
    rw [← hx, ← hy, addf_apply, shapeCast_self]
    exact congrArg (fun s => (v37 : S3200x128.Idx → EReal) (ix2 r q) + s) (broadcastTo_1b_ab_apply _ _ r q)
  have hm : ∀ u : Fin 1, meanCol x (ix2 r u) = Cert.Spec.mean y := fun u => by
    rw [meanCol_apply]
    unfold Cert.Spec.mean
    exact congrArg (fun s => Ideal.div s Cert.Spec.c128) (Finset.sum_congr rfl fun q _ => hxq q)
  generalize hd : subf x (broadcastTo S3200x128 (meanCol x) broadcasts_S3200x1_S3200x128) = d
  have hdq : ∀ q : Fin 128, d (ix2 r q) = y q - Cert.Spec.mean y := fun q => by
    rw [← hd, subf_apply, broadcastTo_a1_ab_apply, hm, hxq]
  have hv : ∀ u : Fin 1, meanCol (mulf d d) (ix2 r u) = Cert.Spec.variance y := fun u => by
    rw [meanCol_apply]
    unfold Cert.Spec.variance
    refine congrArg (fun s => Ideal.div s Cert.Spec.c128) (Finset.sum_congr rfl fun q _ => ?_)
    rw [mulf_apply, hdq]
  have e : k1_pay1 (F := Ideal) v30 v31 v37 v38
      = maximumf (addf (mulf v30 (mulf d (broadcastTo S3200x128
            (rsqrt (addf (meanCol (mulf d d)) (broadcast S3200x1 (Scalar.ofBits .f32 0x3727C5AC#32))))
            broadcasts_S3200x1_S3200x128))) v31)
          (broadcast S3200x128 (Scalar.ofBits .f32 0x00000000#32)) := by
    rw [← hd, ← hx]; rfl
  rw [e, maximumf_apply, addf_apply, mulf_apply, mulf_apply, broadcast_apply, broadcastTo_a1_ab_apply, hdq]
  show max (v30 (ix2 r j) * ((y j - Cert.Spec.mean y) * Ideal.rsqrt (meanCol (mulf d d) (ix2 r 0) + Cert.Spec.cEps)) + v31 (ix2 r j)) Cert.Spec.cZero = _
  rw [hv]
  rfl

end Cert.KernelIdeal.Hand

end
-- ==== Proof.EdgePayload.lean ====
/-
  The edge kernel's body at one entry of its block: `Spec.edge` of row `r` of the blocks of the two gathered node
  rows, of the geometry block and of the graph-index column, the conditioning row selected by the indicator product.
-/
import proofs.«414055_j42691974922540_1_alg».proof.Proof.Gen.KernelIdeal.Frame
import proofs.«414055_j42691974922540_1_alg».proof.Proof.EdgeJoin
import proofs.«414055_j42691974922540_1_alg».proof.Proof.EdgeNorm
import proofs.«414055_j42691974922540_1_alg».proof.Proof.Spec
import proofs.«414055_j42691974922540_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen

/-- The body's loads and its store are at offset zero: whole blocks. -/
theorem offsets_zero : (![0, 0] : Fin 2 → Nat) = fun _ => 0 := funext fun a => by fin_cases a <;> rfl

/-- What the edge kernel leaves at entry `(r, j)` of its output block, from its nine input blocks. -/
theorem out1_9_apply (x0 x1 : Vec Ideal S3200x128 .f32) (x2 : Vec Ideal S3200x8 .f32) (x3 : Vec Ideal S3200x1 .i32)
    (x4 : Vec Ideal S64x256 .f32) (x5 : Vec Ideal S8x30 .f32) (x6 : Vec Ideal S1x30 .f32) (x7 : Vec Ideal S286x128 .f32)
    (x8 : Vec Ideal S1x128 .f32) (r : Fin 3200) (j : Fin 128) :
    (out1_9 (F := Ideal) x0 x1 x2 x3 x4 x5 x6 x7 x8 : S3200x128.Idx → EReal) (ix2 r j)
      = Cert.Spec.edge (fun k => (x0 : S3200x128.Idx → EReal) (ix2 r k)) (fun k => (x1 : S3200x128.Idx → EReal) (ix2 r k))
          (fun k => (x2 : S3200x8.Idx → EReal) (ix2 r k))
          (Cert.Spec.onehotRow ((x3 : S3200x1.Idx → BitVec 32) (ix2 r 0)) (fun k c => (x4 : S64x256.Idx → EReal) (ix2 k c)))
          (fun k q => (x5 : S8x30.Idx → EReal) (ix2 k q)) (fun q => (x6 : S1x30.Idx → EReal) (ix2 0 q))
          (fun k j' => (x7 : S286x128.Idx → EReal) (ix2 k j')) (fun j' => (x8 : S1x128.Idx → EReal) (ix2 0 j')) j := by
  unfold out1_9
  rw [View.canon_unit_zero offsets_zero]
  simp only [View.ld_unit_zero (S := S3200x128) offsets_zero, View.ld_unit_zero (S := S3200x8) offsets_zero,
    View.ld_unit_zero (S := S3200x1) offsets_zero, View.ld_unit_zero (S := S64x256) offsets_zero,
    View.ld_unit_zero (S := S8x30) offsets_zero, View.ld_unit_zero (S := S1x30) offsets_zero,
    View.ld_unit_zero (S := S286x128) offsets_zero, View.ld_unit_zero (S := S1x128) offsets_zero]
  refine (k1_pay1_apply _ _ _ _ r j).trans ?_
  simp only [k1_pay3_apply, k1_pay4_apply, k1_pay5_apply]
  rfl

end Cert.KernelIdeal.Hand

end
-- ==== Proof.EdgeValue.lean ====
/-
  From the edge kernel's blocks to its result array: grid point `t` writes rows `3200 t … 3200 t + 3199`, each
  entry `Spec.edge` of the matching rows of the arrays the region finds, and the hundred blocks tile the 320000 rows.
-/
import proofs.«414055_j42691974922540_1_alg».proof.Proof.EdgePayload

set_option maxRecDepth 16384

noncomputable section

open scoped BigOperators
open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The printed index maps of the four moving input windows and of the output window, over the grid: block `(t, 0)`. -/
private theorem idx_moving : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_9.index t (0 : Fin 2) = t.val ∧ win1_9.index t (1 : Fin 2) = 0 :=
  (by decide +kernel : ∀ t : Fin grid1.N, _)

/-- The printed index maps of the five resident input windows, over the grid: block `(0, 0)`. -/
private theorem idx_resident : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row `r` of the source-node block at point `t` is row `3200 t + r` of its array. -/
private theorem blk_v33 (c : Dev nD) (t : Fin cfg1.N) (r : Fin 3200) (k : Fin 128) (h : 3200 * t.val + r.val < 320000) :
    (iblk1 (F := Ideal) V c 0 t : S3200x128.Idx → EReal) (ix2 r k)
      = (V c main_v33 : S320000x128.Idx → EReal) (ix2 (⟨3200 * t.val + r.val, h⟩ : Fin 320000) k) := by
  obtain ⟨e0, e1, e2, e3, e4, e5, e6, e7, -⟩ := idx_moving t
  unfold iblk1
  rw [View.read_apply]
  refine congrArg (V c main_v33 : S320000x128.Idx → EReal) ?_
  funext a
  apply Fin.ext
  match a with
  | ⟨0, _⟩ => show win1_0.index t (0 : Fin 2) * 3200 + 1 * r.val = 3200 * t.val + r.val; omega
  | ⟨1, _⟩ => show win1_0.index t (1 : Fin 2) * 128 + 1 * k.val = k.val; omega

/-- Row `r` of the target-node block at point `t` is row `3200 t + r` of its array. -/
private theorem blk_v34 (c : Dev nD) (t : Fin cfg1.N) (r : Fin 3200) (k : Fin 128) (h : 3200 * t.val + r.val < 320000) :
    (iblk1 (F := Ideal) V c 1 t : S3200x128.Idx → EReal) (ix2 r k)
      = (V c main_v34 : S320000x128.Idx → EReal) (ix2 (⟨3200 * t.val + r.val, h⟩ : Fin 320000) k) := by
  obtain ⟨e0, e1, e2, e3, e4, e5, e6, e7, -⟩ := idx_moving t
  unfold iblk1
  rw [View.read_apply]
  refine congrArg (V c main_v34 : S320000x128.Idx → EReal) ?_
  funext a
  apply Fin.ext
  match a with
  | ⟨0, _⟩ => show win1_1.index t (0 : Fin 2) * 3200 + 1 * r.val = 3200 * t.val + r.val; omega
  | ⟨1, _⟩ => show win1_1.index t (1 : Fin 2) * 128 + 1 * k.val = k.val; omega

/-- Row `r` of the geometry block at point `t` is row `3200 t + r` of its array. -/
private theorem blk_arg1 (c : Dev nD) (t : Fin cfg1.N) (r : Fin 3200) (k : Fin 8) (h : 3200 * t.val + r.val < 320000) :
    (iblk1 (F := Ideal) V c 2 t : S3200x8.Idx → EReal) (ix2 r k)
      = (V c main_arg1 : S320000x8.Idx → EReal) (ix2 (⟨3200 * t.val + r.val, h⟩ : Fin 320000) k) := by
  obtain ⟨e0, e1, e2, e3, e4, e5, e6, e7, -⟩ := idx_moving t
  unfold iblk1
  rw [View.read_apply]
  refine congrArg (V c main_arg1 : S320000x8.Idx → EReal) ?_
  funext a
  apply Fin.ext
  match a with
  | ⟨0, _⟩ => show win1_2.index t (0 : Fin 2) * 3200 + 1 * r.val = 3200 * t.val + r.val; omega
  | ⟨1, _⟩ => show win1_2.index t (1 : Fin 2) * 8 + 1 * k.val = k.val; omega

/-- Row `r` of the graph-index block at point `t` is row `3200 t + r` of its column. -/
private theorem blk_v35 (c : Dev nD) (t : Fin cfg1.N) (r : Fin 3200) (k : Fin 1) (h : 3200 * t.val + r.val < 320000) :
    (iblk1 (F := Ideal) V c 3 t : S3200x1.Idx → BitVec 32) (ix2 r k)
      = (V c main_v35 : S320000x1.Idx → BitVec 32) (ix2 (⟨3200 * t.val + r.val, h⟩ : Fin 320000) k) := by
  obtain ⟨e0, e1, e2, e3, e4, e5, e6, e7, -⟩ := idx_moving t
  unfold iblk1
  rw [View.read_apply]
  refine congrArg (V c main_v35 : S320000x1.Idx → BitVec 32) ?_
  funext a
  apply Fin.ext
  match a with
  | ⟨0, _⟩ => show win1_3.index t (0 : Fin 2) * 3200 + 1 * r.val = 3200 * t.val + r.val; omega
  | ⟨1, _⟩ => show win1_3.index t (1 : Fin 2) * 1 + 1 * k.val = k.val; omega

/-- The conditioning table's block at every point is the whole table. -/
private theorem blk_v31 (c : Dev nD) (t : Fin cfg1.N) (p : Fin 64) (q : Fin 256) :
    (iblk1 (F := Ideal) V c 4 t : S64x256.Idx → EReal) (ix2 p q) = (V c main_v31 : S64x256.Idx → EReal) (ix2 p q) := by
  obtain ⟨e0, e1, e2, e3, e4, e5, e6, e7, e8, e9⟩ := idx_resident t
  unfold iblk1
  rw [View.read_apply]
  refine congrArg (V c main_v31 : S64x256.Idx → EReal) ?_
  funext a
  apply Fin.ext
  match a with
  | ⟨0, _⟩ => show win1_4.index t (0 : Fin 2) * 64 + 1 * p.val = p.val; omega
  | ⟨1, _⟩ => show win1_4.index t (1 : Fin 2) * 256 + 1 * q.val = q.val; omega

/-- The geometry weight's block at every point is the whole matrix. -/
private theorem blk_v15 (c : Dev nD) (t : Fin cfg1.N) (p : Fin 8) (q : Fin 30) :
    (iblk1 (F := Ideal) V c 5 t : S8x30.Idx → EReal) (ix2 p q) = (V c main_v15 : S8x30.Idx → EReal) (ix2 p q) := by
  obtain ⟨e0, e1, e2, e3, e4, e5, e6, e7, e8, e9⟩ := idx_resident t
  unfold iblk1
  rw [View.read_apply]
  refine congrArg (V c main_v15 : S8x30.Idx → EReal) ?_
  funext a
  apply Fin.ext
  match a with
  | ⟨0, _⟩ => show win1_5.index t (0 : Fin 2) * 8 + 1 * p.val = p.val; omega
  | ⟨1, _⟩ => show win1_5.index t (1 : Fin 2) * 30 + 1 * q.val = q.val; omega

/-- The geometry bias's block at every point is the whole row. -/
private theorem blk_v26 (c : Dev nD) (t : Fin cfg1.N) (p : Fin 1) (q : Fin 30) :
    (iblk1 (F := Ideal) V c 6 t : S1x30.Idx → EReal) (ix2 p q) = (V c main_v26 : S1x30.Idx → EReal) (ix2 p q) := by
  obtain ⟨e0, e1, e2, e3, e4, e5, e6, e7, e8, e9⟩ := idx_resident t
  unfold iblk1
  rw [View.read_apply]
  refine congrArg (V c main_v26 : S1x30.Idx → EReal) ?_
  funext a
  apply Fin.ext
  match a with
  | ⟨0, _⟩ => show win1_6.index t (0 : Fin 2) * 1 + 1 * p.val = p.val; omega
  | ⟨1, _⟩ => show win1_6.index t (1 : Fin 2) * 30 + 1 * q.val = q.val; omega

/-- The FiLM weight's block at every point is the whole matrix. -/
private theorem blk_v24 (c : Dev nD) (t : Fin cfg1.N) (p : Fin 286) (q : Fin 128) :
    (iblk1 (F := Ideal) V c 7 t : S286x128.Idx → EReal) (ix2 p q) = (V c main_v24 : S286x128.Idx → EReal) (ix2 p q) := by
  obtain ⟨e0, e1, e2, e3, e4, e5, e6, e7, e8, e9⟩ := idx_resident t
  unfold iblk1
  rw [View.read_apply]
  refine congrArg (V c main_v24 : S286x128.Idx → EReal) ?_
  funext a
  apply Fin.ext
  match a with
  | ⟨0, _⟩ => show win1_7.index t (0 : Fin 2) * 286 + 1 * p.val = p.val; omega
  | ⟨1, _⟩ => show win1_7.index t (1 : Fin 2) * 128 + 1 * q.val = q.val; omega

/-- The FiLM bias's block at every point is the whole row. -/
private theorem blk_v27 (c : Dev nD) (t : Fin cfg1.N) (p : Fin 1) (q : Fin 128) :
    (iblk1 (F := Ideal) V c 8 t : S1x128.Idx → EReal) (ix2 p q) = (V c main_v27 : S1x128.Idx → EReal) (ix2 p q) := by
  obtain ⟨e0, e1, e2, e3, e4, e5, e6, e7, e8, e9⟩ := idx_resident t
  unfold iblk1
  rw [View.read_apply]
  refine congrArg (V c main_v27 : S1x128.Idx → EReal) ?_
  funext a
  apply Fin.ext
  match a with
  | ⟨0, _⟩ => show win1_8.index t (0 : Fin 2) * 1 + 1 * p.val = p.val; omega
  | ⟨1, _⟩ => show win1_8.index t (1 : Fin 2) * 128 + 1 * q.val = q.val; omega

/-- Two edge rows with the same ingredients, entry by entry, have the same entries. -/
private theorem edge_congr {hs hs' hd hd' : Fin 128 → EReal} {eg eg' : Fin 8 → EReal} {gbrow gbrow' : Fin 256 → EReal}
    {wgT wgT' : Fin 8 → Fin 30 → EReal} {gb gb' : Fin 30 → EReal} {fwT fwT' : Fin 286 → Fin 128 → EReal}
    {fb fb' : Fin 128 → EReal} (h0 : ∀ k, hs k = hs' k) (h1 : ∀ k, hd k = hd' k) (h2 : ∀ k, eg k = eg' k)
    (h3 : ∀ k, gbrow k = gbrow' k) (h4 : ∀ k q, wgT k q = wgT' k q) (h5 : ∀ q, gb q = gb' q)
    (h6 : ∀ k q, fwT k q = fwT' k q) (h7 : ∀ q, fb q = fb' q) (j : Fin 128) :
    Cert.Spec.edge hs hd eg gbrow wgT gb fwT fb j = Cert.Spec.edge hs' hd' eg' gbrow' wgT' gb' fwT' fb' j := by
  obtain rfl : hs = hs' := funext h0
  obtain rfl : hd = hd' := funext h1
  obtain rfl : eg = eg' := funext h2
  obtain rfl : gbrow = gbrow' := funext h3
  obtain rfl : wgT = wgT' := funext fun k => funext (h4 k)
  obtain rfl : gb = gb' := funext h5
  obtain rfl : fwT = fwT' := funext fun k => funext (h6 k)
  obtain rfl : fb = fb' := funext h7
  rfl

/-- The selected conditioning row depends on the word and on the table's entries only. -/
private theorem onehotRow_congr {w w' : BitVec 32} {GB GB' : Fin 64 → Fin 256 → EReal} (hw : w = w')
    (hG : ∀ k q, GB k q = GB' k q) (q : Fin 256) : Cert.Spec.onehotRow w GB q = Cert.Spec.onehotRow w' GB' q := by
  obtain rfl := hw
  obtain rfl : GB = GB' := funext fun k => funext (hG k)
  rfl

/-- The edge region's result as one function of the arrays the region finds: entry `(e, j)` is `Spec.edge` of rows `e`. -/
abbrev edgeArr (c : Dev nD) : S320000x128.Idx → EReal := fun i =>
  Cert.Spec.edge (fun k => (V c main_v33 : S320000x128.Idx → EReal) (ix2 (⟨(i 0).val, idx2_lt0 i⟩ : Fin 320000) k))
    (fun k => (V c main_v34 : S320000x128.Idx → EReal) (ix2 (⟨(i 0).val, idx2_lt0 i⟩ : Fin 320000) k))
    (fun k => (V c main_arg1 : S320000x8.Idx → EReal) (ix2 (⟨(i 0).val, idx2_lt0 i⟩ : Fin 320000) k))
    (Cert.Spec.onehotRow ((V c main_v35 : S320000x1.Idx → BitVec 32) (ix2 (⟨(i 0).val, idx2_lt0 i⟩ : Fin 320000) 0))
      (fun k c' => (V c main_v31 : S64x256.Idx → EReal) (ix2 k c')))
    (fun k q => (V c main_v15 : S8x30.Idx → EReal) (ix2 k q)) (fun q => (V c main_v26 : S1x30.Idx → EReal) (ix2 0 q))
    (fun k j' => (V c main_v24 : S286x128.Idx → EReal) (ix2 k j')) (fun j' => (V c main_v27 : S1x128.Idx → EReal) (ix2 0 j'))
    (⟨(i 1).val, idx2_lt1 i⟩ : Fin 128)

/-- What grid point `t` writes back is block `t` of `edgeArr`. -/
theorem flushed_edge (c : Dev nD) (t : Fin cfg1.N) :
    (dat1 (F := Ideal) V c).flushed 9 t = ((cfg1.win 9).blk t).view.read (Elt Ideal) (edgeArr V c) := by
  show (cfg1.win 9).cut (grid1.coords t) ((dat1 (F := Ideal) V c).after 9 t) = _
  rw [after1_9]
  funext y
  obtain ⟨r, j, rfl⟩ : ∃ (r : Fin 3200) (j : Fin 128), y = ix2 r j := ⟨y 0, y 1, eq_ix2 y⟩
  have hN : t.val < 100 := lt_of_lt_of_eq t.isLt N_1
  have hr : r.val < 3200 := r.isLt
  have hb : 3200 * t.val + r.val < 320000 := by omega
  obtain ⟨-, -, -, -, -, -, -, -, e8, e9⟩ := idx_moving t
  have hi : (((cfg1.win 9).blk t).view.emb (ix2 r j) : S320000x128.Idx)
      = ix2 (⟨3200 * t.val + r.val, hb⟩ : Fin 320000) j := by
    funext a
    apply Fin.ext
    match a with
    | ⟨0, _⟩ => show win1_9.index t (0 : Fin 2) * 3200 + 1 * r.val = 3200 * t.val + r.val; omega
    | ⟨1, _⟩ => show win1_9.index t (1 : Fin 2) * 128 + 1 * j.val = j.val; omega
  refine (out1_9_apply _ _ _ _ _ _ _ _ _ r j).trans ?_
  refine Eq.trans ?_ (congrArg (edgeArr V c) hi).symm
  exact edge_congr (fun k => blk_v33 V c t r k hb) (fun k => blk_v34 V c t r k hb) (fun k => blk_arg1 V c t r k hb)
    (onehotRow_congr (blk_v35 V c t r 0 hb) (fun k q => blk_v31 V c t k q))
    (fun k q => blk_v15 V c t k q) (fun q => blk_v26 V c t 0 q) (fun k q => blk_v24 V c t k q)
    (fun q => blk_v27 V c t 0 q) j

/-- The hundred blocks tile the rows: row `e` lies in the block of grid point `e / 3200`. -/
theorem edge_cover (i : S320000x128.Idx) :
    ∃ t : Fin cfg1.N, (cfg1.win 9).flush t = true ∧ i ∈ ((cfg1.win 9).blk t).view.set := by
  have h0 : (i 0).val < 320000 := idx2_lt0 i
  have h1 : (i 1).val < 128 := idx2_lt1 i
  have hq : (i 0).val / 3200 < cfg1.N := by rw [show cfg1.N = 100 from N_1]; omega
  obtain ⟨t, ht⟩ : ∃ t : Fin cfg1.N, t.val = (i 0).val / 3200 := ⟨⟨_, hq⟩, rfl⟩
  obtain ⟨-, -, -, -, -, -, -, -, e8, e9⟩ := idx_moving t
  refine ⟨t, flush1_9 t, ?_⟩
  show i ∈ ((View.whole main_v36).slice (win1_9.rect t)).set
  rw [View.set_slice_whole, Rect.mem_set_unit]
  intro a
  match a with
  | ⟨0, _⟩ =>
    show win1_9.index t (0 : Fin 2) * 3200 ≤ (i 0).val ∧ (i 0).val < win1_9.index t (0 : Fin 2) * 3200 + 3200
    omega
  | ⟨1, _⟩ =>
    show win1_9.index t (1 : Fin 2) * 128 ≤ (i 1).val ∧ (i 1).val < win1_9.index t (1 : Fin 2) * 128 + 128
    omega

/-- The edge region's result array, entry `(e, j)`, from the arrays the region finds. -/
theorem edge_final (c : Dev nD) (e : Fin 320000) (j : Fin 128) :
    ((dat1 (F := Ideal) V c).arrAt 9 cfg1.N : S320000x128.Idx → EReal) (ix2 e j)
      = Cert.Spec.edge (fun k => (V c main_v33 : S320000x128.Idx → EReal) (ix2 e k))
          (fun k => (V c main_v34 : S320000x128.Idx → EReal) (ix2 e k))
          (fun k => (V c main_arg1 : S320000x8.Idx → EReal) (ix2 e k))
          (Cert.Spec.onehotRow ((V c main_v35 : S320000x1.Idx → BitVec 32) (ix2 e 0))
            (fun k c' => (V c main_v31 : S64x256.Idx → EReal) (ix2 k c')))
          (fun k q => (V c main_v15 : S8x30.Idx → EReal) (ix2 k q)) (fun q => (V c main_v26 : S1x30.Idx → EReal) (ix2 0 q))
          (fun k j' => (V c main_v24 : S286x128.Idx → EReal) (ix2 k j')) (fun j' => (V c main_v27 : S1x128.Idx → EReal) (ix2 0 j')) j := by
  have h := (dat1 (F := Ideal) V c).arrAt_eq_of_cover 9 (edgeArr V c) (fun t _ => flushed_edge V c t) (fun i => edge_cover i)
  exact congrFun h (ix2 e j)

end Cert.KernelIdeal.Hand

end
-- ==== Proof.KernelWeights.lean ====
/-
  The four weight matrices as the kernel's host stretch prepares them: a weight-normed matrix is each row of `v`
  scaled by `g / ‖row‖` (the norm the square root of the row's sum of squares), then transposed; the FiLM
  weight is only transposed. The reference's program applies the same host operations; neither proof opens them.
-/
import proofs.«414055_j42691974922540_1_alg».proof.Proof.Gen.KernelIdeal
import Idealize.ShloMosaic.Lib.ValueIdx

set_option maxRecDepth 16384

noncomputable section

open scoped BigOperators
open Idealize.ShloMosaic Idealize.ShloMosaic.TcCoe Idealize.ShloMosaic.ValueIdx Idealize.SL.Sem

namespace Cert.KernelIdeal.Hand

open Cert.KernelIdeal Cert.KernelIdeal.Gen

/-- The node projection's weight: `[128, 260]` weight-normed, transposed to `[260, 128]`. -/
def wnT (v : FVec Ideal S128x260 .f32) (g : FVec Ideal S128 .f32) : FVec Ideal S260x128 .f32 :=
  transpose S260x128 [1, 0] (mulf v (broadcastInDim S128x260 ![0, 1] bcast_S128x1_S128x260_0_1 (broadcastInDim S128x1 ![0] bcast_S128_S128x1_0
    (Host.divf g (Host.sqrt (Host.reduceAdd (mulf v v) (constant (F := Ideal) S_ .f32 0x00000000#32) reducesTo_S128x260_S128_d1 h_S_))))))
    transposes_S128x260_S260x128_1_0

/-- The geometry projection's weight: `[30, 8]` weight-normed, transposed to `[8, 30]`. -/
def wgT (v : FVec Ideal S30x8 .f32) (g : FVec Ideal S30 .f32) : FVec Ideal S8x30 .f32 :=
  transpose S8x30 [1, 0] (mulf v (broadcastInDim S30x8 ![0, 1] bcast_S30x1_S30x8_0_1 (broadcastInDim S30x1 ![0] bcast_S30_S30x1_0
    (Host.divf g (Host.sqrt (Host.reduceAdd (mulf v v) (constant (F := Ideal) S_ .f32 0x00000000#32) reducesTo_S30x8_S30_d1 h_S_))))))
    transposes_S30x8_S8x30_1_0

/-- The conditioning projection's weight: `[256, 512]` weight-normed, transposed to `[512, 256]`. -/
def wcT (v : FVec Ideal S256x512 .f32) (g : FVec Ideal S256 .f32) : FVec Ideal S512x256 .f32 :=
  transpose S512x256 [1, 0] (mulf v (broadcastInDim S256x512 ![0, 1] bcast_S256x1_S256x512_0_1 (broadcastInDim S256x1 ![0] bcast_S256_S256x1_0
    (Host.divf g (Host.sqrt (Host.reduceAdd (mulf v v) (constant (F := Ideal) S_ .f32 0x00000000#32) reducesTo_S256x512_S256_d1 h_S_))))))
    transposes_S256x512_S512x256_1_0

/-- The FiLM linear layer's weight, transposed to `[286, 128]`. -/
def fwT (w : FVec Ideal S128x286 .f32) : FVec Ideal S286x128 .f32 :=
  transpose S286x128 [1, 0] w transposes_S128x286_S286x128_1_0

end Cert.KernelIdeal.Hand

end
-- ==== Proof.HostRead.lean ====
/-
  What the two regions find in the buffers they read, in terms of the launch memory.
  Before the node region the host stretch has prepared the transposed weight-normed matrices, the bias rows (a vector
  as a one-row matrix) and the conditioning table; the node region changes only its result array, and the host
  operations between the regions write only the two takes' buffers and the column of graph indices.
-/
import proofs.«414055_j42691974922540_1_alg».proof.Proof.Gen.KernelIdeal.Frame
import proofs.«414055_j42691974922540_1_alg».proof.Proof.KernelWeights
import proofs.«414055_j42691974922540_1_alg».proof.Proof.Spec
import proofs.«414055_j42691974922540_1_alg».proof.Proof.LibPlainProduct
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators
open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- No operation of a printed host stretch writes the given buffer: the stretch's result buffers are compared
    with it one by one. -/
local macro "no_write" : tactic =>
  `(tactic| (refine List.forall_iff_forall_mem.mp ?_
             simp only [hostOps0, hostOps1, hostOps1_1, hostOps1_2, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- A buffer that neither the node region's write-back nor any host operation between the two regions touches
    holds at the edge region's entry what it held at the node region's entry. -/
private theorem V5_eq_V1 (c : Dev nD) (b : Ref sig .tc)
    (h2 : ∀ op ∈ (hostOps1_2 : List (HloOp τ sig (Elt Ideal))), (Proc.devRef .tc b : DevRef τ sig) ∉ op.writes)
    (h1 : ∀ op ∈ (hostOps1_1 : List (HloOp τ sig (Elt Ideal))), (Proc.devRef .tc b : DevRef τ sig) ∉ op.writes)
    (h0 : ∀ op ∈ (hostOps1 : List (HloOp τ sig (Elt Ideal))), (Proc.devRef .tc b : DevRef τ sig) ∉ op.writes)
    (hne : ∀ w, Pipeline.arrRef spec0 w ≠ b) :
    V5 m ρ c b = V1 m ρ c b :=
  calc W5 m ρ c (Proc.devRef .tc b)
    _ = W4 m ρ c (Proc.devRef .tc b) := StableHlo.after_of_forall_not_mem _ _ h2
    _ = W3 m ρ c (Proc.devRef .tc b) := StableHlo.after_of_forall_not_mem _ _ h1
    _ = W2 m ρ c (Proc.devRef .tc b) := StableHlo.after_of_forall_not_mem _ _ h0
    _ = W1 m ρ c (Proc.devRef .tc b) := W2_of_ne m ρ c b hne

/-- A vector `[a]` cast to a column `[a, 1]` reads, at `(i, 0)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What the node region finds -/

theorem V1_arg0 (c : Dev nD) : V1 m ρ c main_arg0 = m ((c : Thread nD τ).loc main_arg0) :=
  calc W1 m ρ c (Proc.devRef .tc main_arg0)
    _ = W0 m ρ c (Proc.devRef .tc main_arg0) := StableHlo.after_of_forall_not_mem _ _ (by no_write)
    _ = m ((c : Thread nD τ).loc main_arg0) := rfl

theorem V1_v7 (c : Dev nD) :
    (V1 m ρ c main_v7 : S260x128.Idx → EReal) = wnT (m ((c : Thread nD τ).loc main_arg6)) (m ((c : Thread nD τ).loc main_arg7)) := by
  show StableHlo.after hostOps0 (fun b => m (c, b)) (Proc.devRef .tc main_v7) = _
  after_results
  unfold wnT
  rfl

theorem V1_v25_apply (c : Dev nD) (j : Fin 128) :
    (V1 m ρ c main_v25 : S1x128.Idx → EReal) (ix2 0 j) = (m ((c : Thread nD τ).loc main_arg8) : S128.Idx → EReal) (ix1 j) := by
  have e : (V1 m ρ c main_v25 : S1x128.Idx → EReal)
      = shapeCast S1x128 (m ((c : Thread nD τ).loc main_arg8) : S128.Idx → EReal) shapeCasts_S128_S1x128 := by
    show StableHlo.after hostOps0 (fun b => m (c, b)) (Proc.devRef .tc main_v25) = _
    after_results
    rfl
  rw [e]
  exact shapeCast_a_1a_apply _ _ 0 j

/-! ## What the edge region finds -/

theorem V5_arg1 (c : Dev nD) : V5 m ρ c main_arg1 = m ((c : Thread nD τ).loc main_arg1) :=
  calc V5 m ρ c main_arg1
    _ = V1 m ρ c main_arg1 := V5_eq_V1 m ρ c main_arg1 (by no_write) (by no_write) (by no_write) (by decide)
    _ = W0 m ρ c (Proc.devRef .tc main_arg1) := StableHlo.after_of_forall_not_mem _ _ (by no_write)
    _ = m ((c : Thread nD τ).loc main_arg1) := rfl

theorem V5_v35_apply (c : Dev nD) (e : Fin 320000) :
    (V5 m ρ c main_v35 : S320000x1.Idx → BitVec 32) (ix2 e 0) = (m ((c : Thread nD τ).loc main_arg5) : S320000.Idx → BitVec 32) (ix1 e) := by
  have h4 : W4 m ρ c (Proc.devRef .tc main_arg5) = m ((c : Thread nD τ).loc main_arg5) :=
    calc W4 m ρ c (Proc.devRef .tc main_arg5)
      _ = W3 m ρ c (Proc.devRef .tc main_arg5) := StableHlo.after_of_forall_not_mem _ _ (by no_write)
      _ = W2 m ρ c (Proc.devRef .tc main_arg5) := StableHlo.after_of_forall_not_mem _ _ (by no_write)
      _ = W1 m ρ c (Proc.devRef .tc main_arg5) := W2_of_ne m ρ c main_arg5 (by decide)
      _ = W0 m ρ c (Proc.devRef .tc main_arg5) := StableHlo.after_of_forall_not_mem _ _ (by no_write)
      _ = m ((c : Thread nD τ).loc main_arg5) := rfl
  have e5 : (V5 m ρ c main_v35 : S320000x1.Idx → BitVec 32)
      = shapeCast S320000x1 (W4 m ρ c (Proc.devRef .tc main_arg5) : S320000.Idx → BitVec 32) shapeCasts_S320000_S320000x1 := by
    show StableHlo.after hostOps1_2 (W4 m ρ c) (Proc.devRef .tc main_v35) = _
    after_results
    rfl
  rw [e5, h4]
  exact shapeCast_a_a1_apply _ _ e 0

theorem V5_v31_apply (c : Dev nD) (k : Fin 64) (q : Fin 256) :
    (V5 m ρ c main_v31 : S64x256.Idx → EReal) (ix2 k q)
      = Cert.Spec.gbAt (m ((c : Thread nD τ).loc main_arg2)) (wcT (m ((c : Thread nD τ).loc main_arg12)) (m ((c : Thread nD τ).loc main_arg13)))
          (m ((c : Thread nD τ).loc main_arg14)) k q := by
  have e : (V5 m ρ c main_v31 : S64x256.Idx → EReal)
      = addf (Host.dotGeneral (φ₁ := .f32) (φ₂ := .f32) dot_S64x512_S512x256_S64x256_1_0_0_1_n_n none
                (m ((c : Thread nD τ).loc main_arg2) : FVec Ideal S64x512 .f32)
                (wcT (m ((c : Thread nD τ).loc main_arg12)) (m ((c : Thread nD τ).loc main_arg13))))
          (broadcastInDim S64x256 ![0, 1] bcast_S1x256_S64x256_0_1
            (shapeCast S1x256 (m ((c : Thread nD τ).loc main_arg14) : S256.Idx → EReal) shapeCasts_S256_S1x256)) := by
    refine (V5_eq_V1 m ρ c main_v31 (by no_write) (by no_write) (by no_write) (by decide)).trans ?_
    show StableHlo.after hostOps0 (fun b => m (c, b)) (Proc.devRef .tc main_v31) = _
    after_results_simp
    unfold wcT
    rfl
  rw [e, addf_apply]
  unfold Cert.Spec.gbAt
  congr 1
  · exact Cert.Lib.PlainProduct.dotGeneral_apply ⟨rfl, rfl, rfl, rfl, rfl, rfl⟩ none _ _ _ k q
  · refine (StableHlo.Predicate.bcast_of_row bcast_S1x256_S64x256_0_1 _ k q).trans ?_
    exact shapeCast_a_1a_apply _ _ 0 q

theorem V5_v15 (c : Dev nD) :
    (V5 m ρ c main_v15 : S8x30.Idx → EReal) = wgT (m ((c : Thread nD τ).loc main_arg9)) (m ((c : Thread nD τ).loc main_arg10)) := by
  refine (V5_eq_V1 m ρ c main_v15 (by no_write) (by no_write) (by no_write) (by decide)).trans ?_
  show StableHlo.after hostOps0 (fun b => m (c, b)) (Proc.devRef .tc main_v15) = _
  after_results
  unfold wgT
  rfl

theorem V5_v26_apply (c : Dev nD) (q : Fin 30) :
    (V5 m ρ c main_v26 : S1x30.Idx → EReal) (ix2 0 q) = (m ((c : Thread nD τ).loc main_arg11) : S30.Idx → EReal) (ix1 q) := by
  have e : (V5 m ρ c main_v26 : S1x30.Idx → EReal)
      = shapeCast S1x30 (m ((c : Thread nD τ).loc main_arg11) : S30.Idx → EReal) shapeCasts_S30_S1x30 := by
    refine (V5_eq_V1 m ρ c main_v26 (by no_write) (by no_write) (by no_write) (by decide)).trans ?_
    show StableHlo.after hostOps0 (fun b => m (c, b)) (Proc.devRef .tc main_v26) = _
    after_results
    rfl
  rw [e]
  exact shapeCast_a_1a_apply _ _ 0 q

theorem V5_v24 (c : Dev nD) :
    (V5 m ρ c main_v24 : S286x128.Idx → EReal) = fwT (m ((c : Thread nD τ).loc main_arg15)) := by
  refine (V5_eq_V1 m ρ c main_v24 (by no_write) (by no_write) (by no_write) (by decide)).trans ?_
  show StableHlo.after hostOps0 (fun b => m (c, b)) (Proc.devRef .tc main_v24) = _
  after_results
  unfold fwT
  rfl

theorem V5_v27_apply (c : Dev nD) (j : Fin 128) :
    (V5 m ρ c main_v27 : S1x128.Idx → EReal) (ix2 0 j) = (m ((c : Thread nD τ).loc main_arg16) : S128.Idx → EReal) (ix1 j) := by
  have e : (V5 m ρ c main_v27 : S1x128.Idx → EReal)
      = shapeCast S1x128 (m ((c : Thread nD τ).loc main_arg16) : S128.Idx → EReal) shapeCasts_S128_S1x128 := by
    refine (V5_eq_V1 m ρ c main_v27 (by no_write) (by no_write) (by no_write) (by decide)).trans ?_
    show StableHlo.after hostOps0 (fun b => m (c, b)) (Proc.devRef .tc main_v27) = _
    after_results
    rfl
  rw [e]
  exact shapeCast_a_1a_apply _ _ 0 j

end Cert.KernelIdeal.Hand

end
-- ==== Proof.HostTake.lean ====
/-
  The two takes between the regions: row `e` of each is the node region's result at the row the edge's end-node index
  names. An index in `[0, 20000)` is neither wrapped (it is not negative) nor clamped by the gather, and the take's
  out-of-range fill is not selected.

  Each take is first read as ONE function `takeOf` of the table and the vector of start words (the node region's
  result array is kept as a variable and never opened), then that function is read at an entry `(e, k)`: the start
  word, read signed, is compared with 0 (false: no wrap), the column of start words is compared with 0 and with 19999
  (both true), the conjunction is and-reduced over the column's one entry (still true), so the select takes the
  gathered row, and the gather's row index is the word clamped into `[0, 19999]`.
-/
import proofs.«414055_j42691974922540_1_alg».proof.Proof.Gen.KernelIdeal.Frame
import proofs.«414055_j42691974922540_1_alg».proof.Proof.KernelWeights
import proofs.«414055_j42691974922540_1_alg».proof.Proof.Spec
import proofs.«414055_j42691974922540_1_alg».proof.Proof.LibPlainProduct
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators
open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- No operation of a printed host stretch writes the given buffer: the stretch's result buffers are compared
    with it one by one. -/
local macro "no_write" : tactic =>
  `(tactic| (refine List.forall_iff_forall_mem.mp ?_
             simp only [hostOps0, hostOps1, hostOps1_1, hostOps1_2, List.flatten_cons, List.flatten_nil, List.append_nil,
               List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-! ## The take as a function of its table and its start words -/

/-- The start words as the take reads them: a negative word is wrapped by the table's length, then the words are
    laid out as a column. -/
def takeIdx (a : IVec S320000 32) : IVec S320000x1 32 :=
  broadcastInDim S320000x1 ![0] bcast_S320000_S320000x1_0
    (select (cmpi .slt a (broadcastInDim S320000 ![] bcast_S_S320000 (constantI S_ 32 0#32)))
      (addi a (broadcastInDim S320000 ![] bcast_S_S320000 (constantI S_ 32 20000#32))) a)

/-- The take as one function of the table and the start words: the gathered row where the (wrapped) word lies in
    `[0, 19999]`, the fill pattern elsewhere. -/
def takeOf (H : FVec Ideal S20000x128 .f32) (a : IVec S320000 32) : FVec Ideal S320000x128 .f32 :=
  select
    (broadcastInDim S320000x128 ![0] bcast_S320000_S320000x128_0
      (Host.reduce IntOp.andi
        (andi (cmpi .sge (takeIdx a) (broadcastInDim S320000x1 ![] bcast_S_S320000x1 (constantI S_ 32 0#32)))
          (cmpi .sle (takeIdx a) (broadcastInDim S320000x1 ![0, 1] bcast_S1x1_S320000x1_0_1
            (broadcastInDim S1x1 ![1] bcast_S1_S1x1_1 (constantI S1 32 19999#32)))))
        (constantI S_ 1 1#1) reducesTo_S320000x1_S320000_d1 h_S_))
    (Host.gather gather_S20000x128_S320000x1_S320000x128_1_0_n_n_0_1_1128 H (takeIdx a))
    (broadcastInDim S320000x128 ![] bcast_S_S320000x128 (constant (F := Ideal) S_ .f32 0x7FC00000#32))

/-! ## The take at one entry -/

/-- A word of a table of 20000 rows, read signed, is its unsigned value. -/
theorem toNat_lt_of_inRange {w : BitVec 32} (h : Cert.Spec.InRange 20000 w) : w.toNat < 20000 ∧ w.toInt = (w.toNat : Int) := by
  obtain ⟨h0, h1⟩ := h
  have hw := w.isLt
  have hc := BitVec.toInt_eq_toNat_cond w
  by_cases hlt : 2 * w.toNat < 2 ^ 32
  · rw [if_pos hlt] at hc
    exact ⟨by omega, hc⟩
  · rw [if_neg hlt] at hc
    exfalso; omega

/-- A column read at row `e`: the vector at `e`. -/
theorem col_apply {α : Type} (v : S320000.Idx → α) (e : Fin 320000) (z : Fin 1) :
    broadcastInDim S320000x1 ![0] bcast_S320000_S320000x1_0 v (ix2 e z) = v (ix1 e) := by
  refine broadcastInDim_apply _ _ v _ (ix1 e) ?_
  intro a
  obtain rfl : a = 0 := Subsingleton.elim _ _
  rw [if_neg (by decide)]
  rfl

/-- A vector laid along the rows of the `[320000, 128]` rectangle reads, at `(e, k)`, the vector at `e`. -/
theorem rows_apply {α : Type} (v : S320000.Idx → α) (e : Fin 320000) (k : Fin 128) :
    broadcastInDim S320000x128 ![0] bcast_S320000_S320000x128_0 v (ix2 e k) = v (ix1 e) := by
  refine broadcastInDim_apply _ _ v _ (ix1 e) ?_
  intro a
  obtain rfl : a = 0 := Subsingleton.elim _ _
  rw [if_neg (by decide)]
  rfl

/-- A word in `[0, 20000)` is not wrapped: the column of start words holds the word itself. -/
theorem takeIdx_apply (a : IVec S320000 32) (e : Fin 320000) (z : Fin 1)
    (h : Cert.Spec.InRange 20000 (a (ix1 e))) : takeIdx a (ix2 e z) = a (ix1 e) := by
  obtain ⟨hlt, -⟩ := toNat_lt_of_inRange h
  unfold takeIdx
  rw [col_apply]
  show Scalar.select (IntOp.cmpi .slt (a (ix1 e)) 0#32) (IntOp.addi (a (ix1 e)) 20000#32) (a (ix1 e)) = a (ix1 e)
  have hc : IntOp.cmpi .slt (a (ix1 e)) 0#32 = 0#1 := by
    refine eq_zero_of_ne_one fun h1 => ?_
    have := (StableHlo.Predicate.slt_iff_toNat (a := a (ix1 e)) (b := 0#32) (by omega) (by decide)).mp h1
    simp at this
  rw [hc, select_zero]

/-- A fold of `and` from the bit 1 over bits that are all 1 is 1. -/
theorem fold_andi_one {ι : Type} [DecidableEq ι] (S : Finset ι) (f : ι → BitVec 1) (hf : ∀ i ∈ S, f i = 1#1) :
    S.fold IntOp.andi 1#1 f = 1#1 := by
  induction S using Finset.cons_induction with
  | empty => rfl
  | cons b S hb ih =>
    rw [Finset.fold_cons, hf b (Finset.mem_cons_self b S), ih fun i hi => hf i (Finset.mem_cons_of_mem hi)]
    rfl

/-- The gather's row: operand axis 0 is collapsed and start-indexed (the start word of row `e`, read signed and
    clamped into `[0, 19999]`), operand axis 1 is the result's offset axis (the coordinate `k` itself). -/
theorem gather_at (H : S20000x128.Idx → EReal) (idx : IVec S320000x1 32) (e : Fin 320000) (k : Fin 128) :
    Host.gather gather_S20000x128_S320000x1_S320000x128_1_0_n_n_0_1_1128 H idx (ix2 e k)
      = H (ix2 (Cert.Spec.rowOf 20000 (by decide) (idx (ix2 e 0))) k) := by
  unfold Host.gather
  congr 1
  funext a
  refine Fin.ext ?_
  match a with
  | ⟨0, _⟩ =>
    show gather_S20000x128_S320000x1_S320000x128_1_0_n_n_0_1_1128.start (ix2 e k) idx 0 + gather_S20000x128_S320000x1_S320000x128_1_0_n_n_0_1_1128.batchCoord (ix2 e k) 0 + gather_S20000x128_S320000x1_S320000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S20000x128_S320000x1_S320000x128_1_0_n_n_0_1_1128.startIndexMap from List.mem_singleton.mpr rfl)]
    have hsi : gather_S20000x128_S320000x1_S320000x128_1_0_n_n_0_1_1128.siIdx (ix2 e k) ⟨List.idxOf (0 : Fin 2) gather_S20000x128_S320000x1_S320000x128_1_0_n_n_0_1_1128.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gather_S20000x128_S320000x1_S320000x128_1_0_n_n_0_1_1128.start (ix2 e k) idx 1 + gather_S20000x128_S320000x1_S320000x128_1_0_n_n_0_1_1128.batchCoord (ix2 e k) 1 + gather_S20000x128_S320000x1_S320000x128_1_0_n_n_0_1_1128.offCoord (ix2 e k) 1 = k.val
    rw [GatherDims.batchCoord_eq_zero _ _ _ List.not_mem_nil]
    unfold GatherDims.start
    rw [dif_neg (show ¬ (1 : Fin 2) ∈ gather_S20000x128_S320000x1_S320000x128_1_0_n_n_0_1_1128.startIndexMap by decide)]
    unfold GatherDims.offCoord
    rw [dif_pos (show (1 : Fin 2) ∈ gather_S20000x128_S320000x1_S320000x128_1_0_n_n_0_1_1128.sKept by decide)]
    simp only [Nat.zero_add]
    rfl

/-- THE TAKE AT `(e, k)`: for a start word in `[0, 20000)` the table's entry `k` of the row the word names. -/
theorem takeOf_apply (H : FVec Ideal S20000x128 .f32) (a : IVec S320000 32) (e : Fin 320000) (k : Fin 128)
    (h : Cert.Spec.InRange 20000 (a (ix1 e))) :
    takeOf H a (ix2 e k) = H (ix2 (Cert.Spec.rowOf 20000 (by decide) (a (ix1 e))) k) := by
  obtain ⟨hlt, hint⟩ := toNat_lt_of_inRange h
  unfold takeOf
  rw [select_apply, rows_apply]
  have hmask : Host.reduce IntOp.andi
        (andi (cmpi .sge (takeIdx a) (broadcastInDim S320000x1 ![] bcast_S_S320000x1 (constantI S_ 32 0#32)))
          (cmpi .sle (takeIdx a) (broadcastInDim S320000x1 ![0, 1] bcast_S1x1_S320000x1_0_1
            (broadcastInDim S1x1 ![1] bcast_S1_S1x1_1 (constantI S1 32 19999#32)))))
        (constantI S_ 1 1#1) reducesTo_S320000x1_S320000_d1 h_S_ (ix1 e) = 1#1 := by
    classical
    rw [Host.reduce_eq_fold]
    refine fold_andi_one _ _ fun i hi => ?_
    obtain ⟨p, q, rfl⟩ : ∃ (p : Fin 320000) (q : Fin 1), i = ix2 p q := ⟨i 0, i 1, eq_ix2 i⟩
    have hd : reducesTo_S320000x1_S320000_d1.drop (ix2 p q) = ix1 e := (Finset.mem_filter.1 hi).2
    have hv : (reducesTo_S320000x1_S320000_d1.drop (ix2 p q) 0 : Nat) = p.val :=
      Shape.ReducesTo.drop_apply_val _ (ix2 p q) 0
    have hpe : p = e := Fin.ext (by rw [← hv, hd])
    subst p
    show IntOp.andi (IntOp.cmpi .sge (takeIdx a (ix2 e q)) 0#32) (IntOp.cmpi .sle (takeIdx a (ix2 e q)) 19999#32) = 1#1
    rw [takeIdx_apply a e q h]
    have h1 : IntOp.cmpi .sge (a (ix1 e)) 0#32 = 1#1 :=
      (StableHlo.Predicate.sge_iff_toNat (a := a (ix1 e)) (b := 0#32) (by omega) (by decide)).mpr (by simp)
    have h2 : IntOp.cmpi .sle (a (ix1 e)) 19999#32 = 1#1 :=
      (StableHlo.Predicate.sle_iff_toNat (a := a (ix1 e)) (b := 19999#32) (by omega) (by decide)).mpr (by
        show (a (ix1 e)).toNat ≤ 19999; omega)
    rw [h1, h2]; rfl
  rw [hmask, select_one, gather_at, takeIdx_apply a e 0 h]

/-! ## The buffers the takes read -/

/-- The first take's start words are the launch's: no host operation and no region writes the argument. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem _ _ (by no_write)
    _ = m ((c : Thread nD τ).loc main_arg3) := rfl

/-- The second take's start words are the launch's as well. -/
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem _ _ (by no_write)
    _ = m ((c : Thread nD τ).loc main_arg4) := rfl

/-! ## Each take is `takeOf` of the node region's result and its start words -/

set_option maxHeartbeats 2000000 in
/-- The first take's buffer at the edge region's entry: written by the last operation of the first take's stretch
    and by nothing after it; its table is the node region's result array, its start words the launch's. -/
theorem V5_v33_eq (c : Dev nD) :
    (V5 m ρ c main_v33 : S320000x128.Idx → EReal)
      = takeOf ((dat0 (F := Ideal) (V1 m ρ) c).arrAt 3 cfg0.N) (m ((c : Thread nD τ).loc main_arg3)) := by
  have h53 : W5 m ρ c (Proc.devRef .tc main_v33) = W3 m ρ c (Proc.devRef .tc main_v33) :=
    calc W5 m ρ c (Proc.devRef .tc main_v33)
      _ = W4 m ρ c (Proc.devRef .tc main_v33) := StableHlo.after_of_forall_not_mem _ _ (by no_write)
      _ = W3 m ρ c (Proc.devRef .tc main_v33) := StableHlo.after_of_forall_not_mem _ _ (by no_write)
  refine h53.trans ?_
  show StableHlo.after hostOps1 (W2 m ρ c) (Proc.devRef .tc main_v33) = _
  after_results_simp
  rw [W2_arg3 m ρ c, (W2_arr m ρ c 3 : W2 m ρ c (Proc.devRef .tc main_v32) = _)]
  unfold takeOf takeIdx
  simp only [StableHlo.TRef.ofBuf, StableHlo.TRef.toBuf, cast_eq]

set_option maxHeartbeats 2000000 in
/-- The second take's buffer at the edge region's entry: written by the last operation of the second take's stretch;
    the first take's stretch writes neither the table nor the second take's start words. -/
theorem V5_v34_eq (c : Dev nD) :
    (V5 m ρ c main_v34 : S320000x128.Idx → EReal)
      = takeOf ((dat0 (F := Ideal) (V1 m ρ) c).arrAt 3 cfg0.N) (m ((c : Thread nD τ).loc main_arg4)) := by
  have h54 : W5 m ρ c (Proc.devRef .tc main_v34) = W4 m ρ c (Proc.devRef .tc main_v34) :=
    StableHlo.after_of_forall_not_mem _ _ (by no_write)
  refine h54.trans ?_
  show StableHlo.after hostOps1_1 (W3 m ρ c) (Proc.devRef .tc main_v34) = _
  after_results_simp
  rw [W2_arg4 m ρ c, (W2_arr m ρ c 3 : W2 m ρ c (Proc.devRef .tc main_v32) = _)]
  unfold takeOf takeIdx
  simp only [StableHlo.TRef.ofBuf, StableHlo.TRef.toBuf, cast_eq]

/-! ## The two takes at an entry -/

/-- The first take: row `e` is the node region's result at row `edge_src[e]`. -/
theorem V5_v33_apply (c : Dev nD) (e : Fin 320000) (k : Fin 128)
    (h : Cert.Spec.InRange 20000 ((m ((c : Thread nD τ).loc main_arg3) : S320000.Idx → BitVec 32) (ix1 e))) :
    (V5 m ρ c main_v33 : S320000x128.Idx → EReal) (ix2 e k)
      = ((dat0 (F := Ideal) (V1 m ρ) c).arrAt 3 cfg0.N : S20000x128.Idx → EReal)
          (ix2 (Cert.Spec.rowOf 20000 (by decide) ((m ((c : Thread nD τ).loc main_arg3) : S320000.Idx → BitVec 32) (ix1 e))) k) :=
  (congrFun (V5_v33_eq m ρ c) (ix2 e k)).trans (takeOf_apply _ _ e k h)

/-- The second take: row `e` is the node region's result at row `edge_dst[e]`. -/
theorem V5_v34_apply (c : Dev nD) (e : Fin 320000) (k : Fin 128)
    (h : Cert.Spec.InRange 20000 ((m ((c : Thread nD τ).loc main_arg4) : S320000.Idx → BitVec 32) (ix1 e))) :
    (V5 m ρ c main_v34 : S320000x128.Idx → EReal) (ix2 e k)
      = ((dat0 (F := Ideal) (V1 m ρ) c).arrAt 3 cfg0.N : S20000x128.Idx → EReal)
          (ix2 (Cert.Spec.rowOf 20000 (by decide) ((m ((c : Thread nD τ).loc main_arg4) : S320000.Idx → BitVec 32) (ix1 e))) k) :=
  (congrFun (V5_v34_eq m ρ c) (ix2 e k)).trans (takeOf_apply _ _ e k h)

end Cert.KernelIdeal.Hand

end
-- ==== Proof.OneHot.lean ====
/-
  The indicator product: for a word `w` in `[0, 64)` exactly one of the 64 indicator entries is one (the one at
  `k = w`), the others are zero, and over the extended reals `0 · x = 0` and `1 · x = x` for every `x`, infinite
  ones included — so the sum is the table's entry in row `w`.
-/
import proofs.«414055_j42691974922540_1_alg».proof.Proof.Spec

noncomputable section

open scoped BigOperators

namespace Cert.Spec

open Idealize.ShloMosaic

/-- A word whose signed reading is non-negative reads the same signed and unsigned. -/
private theorem toInt_eq_toNat_of_nonneg (w : BitVec 32) (h0 : 0 ≤ w.toInt) : w.toInt = (w.toNat : Int) := by
  have hlt : w.toNat < 2 ^ 32 := w.isLt
  rw [BitVec.toInt_eq_toNat_cond] at h0 ⊢
  split at h0 <;> rename_i hc
  · rw [if_pos hc]
  · exfalso; omega

/-- For a word in `[0, 64)`, the indicator at `k` fires exactly when `k` is the word's row. -/
private theorem eq_ofNat_iff (w : BitVec 32) (h : InRange 64 w) (k : Fin 64) :
    w = BitVec.ofNat 32 k.val ↔ k = rowOf 64 (by decide) w := by
  have hv := rowOf_val 64 (by decide) w h
  obtain ⟨h0, h1⟩ := h
  have hw := toInt_eq_toNat_of_nonneg w h0
  have hk : k.val < 64 := k.isLt
  constructor
  · intro e
    apply Fin.ext
    rw [hv]
    have : w.toNat = k.val := by
      have := congrArg BitVec.toNat e
      rw [BitVec.toNat_ofNat] at this
      omega
    omega
  · intro e
    apply BitVec.eq_of_toNat_eq
    rw [BitVec.toNat_ofNat]
    have : k.val = w.toInt.toNat := by rw [e, hv]
    omega

/-- For a word in `[0, 64)` the indicator product selects exactly the word's row. -/
theorem onehotRow_eq (w : BitVec 32) (h : InRange 64 w) (GB : Fin 64 → Fin 256 → EReal) (c : Fin 256) :
    onehotRow w GB c = GB (rowOf 64 (by decide) w) c := by
  unfold onehotRow
  rw [Finset.sum_eq_single (rowOf 64 (by decide) w)]
  · rw [if_pos ((eq_ofNat_iff w h _).mpr rfl), one_mul]
  · intro k _ hk
    rw [if_neg (fun e => hk ((eq_ofNat_iff w h k).mp e)), zero_mul]
  · intro hh
    exact absurd (Finset.mem_univ _) hh

end Cert.Spec

end
-- ==== Proof.KernelValue.lean ====
/-
  The kernel's result array in terms of the launch memory: the edge region's result (`edge_final`) over what the
  region finds (`HostRead`, the two takes), the takes' rows being the node region's result (`node_final`) at the rows
  the end-node indices name, and the conditioning row selected by the indicator product being the table's row the graph
  index names (`onehotRow_eq`) — `Spec.resultAt` at every entry, for indices in range.
-/
import proofs.«414055_j42691974922540_1_alg».proof.Proof.KernelRun
import proofs.«414055_j42691974922540_1_alg».proof.Proof.NodeValue
import proofs.«414055_j42691974922540_1_alg».proof.Proof.EdgeValue
import proofs.«414055_j42691974922540_1_alg».proof.Proof.HostRead
import proofs.«414055_j42691974922540_1_alg».proof.Proof.HostTake
import proofs.«414055_j42691974922540_1_alg».proof.Proof.OneHot

set_option maxRecDepth 16384

noncomputable section

open scoped BigOperators
open Idealize.ShloMosaic Idealize.ShloMosaic.TcCoe Idealize.ShloMosaic.ValueIdx Idealize.SL.Sem

open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The result array as a function of the launch memory. -/
def value (c : Dev nD) : S320000x128.Idx → EReal :=
  Cert.Spec.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (wnT (m ((c : Thread nD τ).loc main_arg6)) (m ((c : Thread nD τ).loc main_arg7))) (m ((c : Thread nD τ).loc main_arg8))
    (wgT (m ((c : Thread nD τ).loc main_arg9)) (m ((c : Thread nD τ).loc main_arg10))) (m ((c : Thread nD τ).loc main_arg11))
    (wcT (m ((c : Thread nD τ).loc main_arg12)) (m ((c : Thread nD τ).loc main_arg13))) (m ((c : Thread nD τ).loc main_arg14))
    (fwT (m ((c : Thread nD τ).loc main_arg15))) (m ((c : Thread nD τ).loc main_arg16))

/-- Entry `(e, j)` of what the edge region leaves in the result array. -/
theorem kernel_value_apply (c : Dev nD) (e : Fin 320000) (j : Fin 128)
    (h3 : Cert.Spec.InRange 20000 ((m ((c : Thread nD τ).loc main_arg3) : S320000.Idx → BitVec 32) (ix1 e)))
    (h4 : Cert.Spec.InRange 20000 ((m ((c : Thread nD τ).loc main_arg4) : S320000.Idx → BitVec 32) (ix1 e)))
    (h5 : Cert.Spec.InRange 64 ((m ((c : Thread nD τ).loc main_arg5) : S320000.Idx → BitVec 32) (ix1 e))) :
    ((dat1 (F := Ideal) (V5 m ρ) c).arrAt 9 cfg1.N : S320000x128.Idx → EReal) (ix2 e j) = value m c (ix2 e j) := by
  rw [edge_final (V5 m ρ) c e j]
  unfold value
  rw [Cert.Spec.result_apply]
  unfold Cert.Spec.resultAt
  simp only [V5_v33_apply m ρ c e _ h3, V5_v34_apply m ρ c e _ h4, node_final (V1 m ρ) c]
  simp only [V1_arg0 m ρ c, V1_v7 m ρ c, V1_v25_apply m ρ c, V5_arg1 m ρ c,
    V5_v35_apply m ρ c, V5_v31_apply m ρ c, V5_v15 m ρ c, V5_v26_apply m ρ c, V5_v24 m ρ c, V5_v27_apply m ρ c]
  rw [show Cert.Spec.onehotRow ((m ((c : Thread nD τ).loc main_arg5) : S320000.Idx → BitVec 32) (ix1 e))
        (fun k c' => Cert.Spec.gbAt (m ((c : Thread nD τ).loc main_arg2))
          (wcT (m ((c : Thread nD τ).loc main_arg12)) (m ((c : Thread nD τ).loc main_arg13))) (m ((c : Thread nD τ).loc main_arg14)) k c')
      = Cert.Spec.gbAt (m ((c : Thread nD τ).loc main_arg2))
          (wcT (m ((c : Thread nD τ).loc main_arg12)) (m ((c : Thread nD τ).loc main_arg13))) (m ((c : Thread nD τ).loc main_arg14))
          (Cert.Spec.rowOf 64 (by decide) ((m ((c : Thread nD τ).loc main_arg5) : S320000.Idx → BitVec 32) (ix1 e)))
      from funext fun q => Cert.Spec.onehotRow_eq _ h5 _ q]

/-- The kernel's run with the result array named: for indices in range it ends at `value`. -/
theorem kernel_run
    (hin : ∀ (c : Dev nD) (e : Fin 320000),
      Cert.Spec.InRange 20000 ((m ((c : Thread nD τ).loc main_arg3) : S320000.Idx → BitVec 32) (ix1 e))
      ∧ Cert.Spec.InRange 20000 ((m ((c : Thread nD τ).loc main_arg4) : S320000.Idx → BitVec 32) (ix1 e))
      ∧ Cert.Spec.InRange 64 ((m ((c : Thread nD τ).loc main_arg5) : S320000.Idx → BitVec 32) (ix1 e))) :
    θ_run defs (onTc (τ := τ) (main (F := Ideal))) ⟨m, fun _ => 0, ρ⟩ (fun r => ∀ c : Dev nD,
      r.2.mem ((c.tc : Thread nD τ).loc main_v36) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans ((W6_arr m ρ c 9).trans
      (Cert.Spec.ext2 _ _ fun e j => kernel_value_apply m ρ c e j (hin c e).1 (hin c e).2.1 (hin c e).2.2)), (h c).2⟩)
    (run_result m ρ)

end Cert.KernelIdeal.Hand

end
-- ==== Proof.RefValue.lean ====
/-
  The reference's result at one entry: its operations read one at a time down to the argument arrays, the gathers at
  the rows the (in-range, hence neither wrapped nor clamped) indices name, the two concatenations by the position in
  the joined row — `Spec.resultAt` over the reference's own transposed weight-normed matrices, which are never opened.
-/
import proofs.«414055_j42691974922540_1_alg».proof.Proof.Gen.ReferenceIdeal.Read
import proofs.«414055_j42691974922540_1_alg».proof.Proof.Spec
import proofs.«414055_j42691974922540_1_alg».proof.Proof.LibPlainProduct
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.ReferenceIdeal.Hand

open Cert.ReferenceIdeal Cert.ReferenceIdeal.Gen Cert.ReferenceIdeal.Read

section Rows
variable {α : Type}

/-- The dimension numbers of a row take: an operand `[N, C]`, start indices `[R, 1]` (one row number per result row),
    a result `[R, C]`; the operand's axis 0 is collapsed and indexed, its axis 1 is the result's offset axis. -/
private abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A row take read at `(e, k)`: the operand at row `idx[e, 0]`, read signed and clamped into `[0, N - 1]`, column `k`. -/
private theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowsDims N R C wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e k) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e k) idx 1 + (rowsDims N R C wf).batchCoord (ix2 e k) 1
      + (rowsDims N R C wf).offCoord (ix2 e k) 1 = k.val
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.add_zero, Nat.zero_add]
    rfl

end Rows

/-! ## The index words: a non-negative word is not wrapped -/

/-- `select (w < 0) (w + n) w` is `w` for a word that is not negative. -/
private theorem wrap_id (w n : BitVec 32) (h : 0 ≤ w.toInt) :
    Scalar.select (IntOp.cmpi .slt w 0#32) (IntOp.addi w n) w = w := by
  have hs : w.slt 0#32 = false := by
    unfold BitVec.slt
    have h0 : (0#32 : BitVec 32).toInt = 0 := by decide
    rw [h0]
    exact decide_eq_false (by omega)
  have hc : IntOp.cmpi .slt w 0#32 = 0#1 := by
    show BitVec.ofBool (w.slt 0#32) = 0#1
    rw [hs]; rfl
  rw [hc]
  exact Idealize.ShloMosaic.ValueIdx.select_zero _ _

/-- The source index column at row `e` is the source index word: in range, so not wrapped. -/
private theorem v16_apply (x3 : (⟨S320000, .i32⟩ : BufTy).Contents (Elt Ideal)) (e : Fin 320000)
    (h : Cert.Spec.InRange 20000 ((x3 : S320000.Idx → BitVec 32) (ix1 e))) :
    (val_main_v16 (F := Ideal) x3 : S320000x1.Idx → BitVec 32) (ix2 e (0 : Fin 1)) = (x3 : S320000.Idx → BitVec 32) (ix1 e) := by
  have ei : idx_main_v16 (ix2 e (0 : Fin 1)) = ix1 e := funext fun a => by match a with | ⟨0, _⟩ => rfl
  rw [val_main_v16_apply, val_main_v15_apply, val_main_v12_apply, val_main_v11_apply, val_main_c_apply, val_main_v14_apply, ei]
  exact wrap_id _ _ h.1

/-- The target index column at row `e` is the target index word. -/
private theorem v23_apply (x4 : (⟨S320000, .i32⟩ : BufTy).Contents (Elt Ideal)) (e : Fin 320000)
    (h : Cert.Spec.InRange 20000 ((x4 : S320000.Idx → BitVec 32) (ix1 e))) :
    (val_main_v23 (F := Ideal) x4 : S320000x1.Idx → BitVec 32) (ix2 e (0 : Fin 1)) = (x4 : S320000.Idx → BitVec 32) (ix1 e) := by
  have ei : idx_main_v23 (ix2 e (0 : Fin 1)) = ix1 e := funext fun a => by match a with | ⟨0, _⟩ => rfl
  rw [val_main_v23_apply, val_main_v22_apply, val_main_v19_apply, val_main_v18_apply, val_main_c_1_apply, val_main_v21_apply, ei]
  exact wrap_id _ _ h.1

/-- The graph index column at row `e` is the graph index word. -/
private theorem v53_apply (x5 : (⟨S320000, .i32⟩ : BufTy).Contents (Elt Ideal)) (e : Fin 320000)
    (h : Cert.Spec.InRange 64 ((x5 : S320000.Idx → BitVec 32) (ix1 e))) :
    (val_main_v53 (F := Ideal) x5 : S320000x1.Idx → BitVec 32) (ix2 e (0 : Fin 1)) = (x5 : S320000.Idx → BitVec 32) (ix1 e) := by
  have ei : idx_main_v53 (ix2 e (0 : Fin 1)) = ix1 e := funext fun a => by match a with | ⟨0, _⟩ => rfl
  rw [val_main_v53_apply, val_main_v52_apply, val_main_v49_apply, val_main_v48_apply, val_main_c_3_apply, val_main_v51_apply, ei]
  exact wrap_id _ _ h.1

/-! ## The three takes -/

/-- Row `e` of the first take is the node table's row the source index names. -/
private theorem v17_apply (x0 : (⟨S20000x260, .f32⟩ : BufTy).Contents (Elt Ideal)) (x3 : (⟨S320000, .i32⟩ : BufTy).Contents (Elt Ideal))
    (x6 : (⟨S128x260, .f32⟩ : BufTy).Contents (Elt Ideal)) (x7 x8 : (⟨S128, .f32⟩ : BufTy).Contents (Elt Ideal))
    (e : Fin 320000) (k : Fin 128) (h : Cert.Spec.InRange 20000 ((x3 : S320000.Idx → BitVec 32) (ix1 e))) :
    (val_main_v17 (F := Ideal) x0 x3 x6 x7 x8 : S320000x128.Idx → EReal) (ix2 e k)
      = (val_main_v10 (F := Ideal) x0 x6 x7 x8 : S20000x128.Idx → EReal)
          (ix2 (Cert.Spec.rowOf 20000 (by decide) ((x3 : S320000.Idx → BitVec 32) (ix1 e))) k) := by
  unfold val_main_v17
  generalize val_main_v10 (F := Ideal) x0 x6 x7 x8 = T
  refine (gather_rows_apply (by decide) gather_S20000x128_S320000x1_S320000x128_1_0_n_n_0_1_1128_wf T
    (val_main_v16 (F := Ideal) x3) e k).trans ?_
  refine congrArg T (congrArg (fun r => ix2 r k) (Fin.ext ?_))
  show min _ (20000 - 1) = min _ (20000 - 1)
  rw [v16_apply x3 e h]

/-- Row `e` of the second take is the node table's row the target index names. -/
private theorem v24_apply (x0 : (⟨S20000x260, .f32⟩ : BufTy).Contents (Elt Ideal)) (x4 : (⟨S320000, .i32⟩ : BufTy).Contents (Elt Ideal))
    (x6 : (⟨S128x260, .f32⟩ : BufTy).Contents (Elt Ideal)) (x7 x8 : (⟨S128, .f32⟩ : BufTy).Contents (Elt Ideal))
    (e : Fin 320000) (k : Fin 128) (h : Cert.Spec.InRange 20000 ((x4 : S320000.Idx → BitVec 32) (ix1 e))) :
    (val_main_v24 (F := Ideal) x0 x4 x6 x7 x8 : S320000x128.Idx → EReal) (ix2 e k)
      = (val_main_v10 (F := Ideal) x0 x6 x7 x8 : S20000x128.Idx → EReal)
          (ix2 (Cert.Spec.rowOf 20000 (by decide) ((x4 : S320000.Idx → BitVec 32) (ix1 e))) k) := by
  unfold val_main_v24
  generalize val_main_v10 (F := Ideal) x0 x6 x7 x8 = T
  refine (gather_rows_apply (by decide) gather_S20000x128_S320000x1_S320000x128_1_0_n_n_0_1_1128_wf T
    (val_main_v23 (F := Ideal) x4) e k).trans ?_
  refine congrArg T (congrArg (fun r => ix2 r k) (Fin.ext ?_))
  show min _ (20000 - 1) = min _ (20000 - 1)
  rw [v23_apply x4 e h]

/-- Row `e` of the third take is the conditioning table's row the graph index names. -/
private theorem v54_apply (x2 : (⟨S64x512, .f32⟩ : BufTy).Contents (Elt Ideal)) (x5 : (⟨S320000, .i32⟩ : BufTy).Contents (Elt Ideal))
    (x12 : (⟨S256x512, .f32⟩ : BufTy).Contents (Elt Ideal)) (x13 x14 : (⟨S256, .f32⟩ : BufTy).Contents (Elt Ideal))
    (e : Fin 320000) (c : Fin 256) (h : Cert.Spec.InRange 64 ((x5 : S320000.Idx → BitVec 32) (ix1 e))) :
    (val_main_v54 (F := Ideal) x2 x5 x12 x13 x14 : S320000x256.Idx → EReal) (ix2 e c)
      = (val_main_v47 (F := Ideal) x2 x12 x13 x14 : S64x256.Idx → EReal)
          (ix2 (Cert.Spec.rowOf 64 (by decide) ((x5 : S320000.Idx → BitVec 32) (ix1 e))) c) := by
  unfold val_main_v54
  generalize val_main_v47 (F := Ideal) x2 x12 x13 x14 = T
  refine (gather_rows_apply (by decide) gather_S64x256_S320000x1_S320000x256_1_0_n_n_0_1_1256_wf T
    (val_main_v53 (F := Ideal) x5) e c).trans ?_
  refine congrArg T (congrArg (fun r => ix2 r c) (Fin.ext ?_))
  show min _ (64 - 1) = min _ (64 - 1)
  rw [v53_apply x5 e h]

/-! ## The three tables: the node rows, the geometry rows, the conditioning rows -/

/-- The node table: a projected, shifted and rectified feature row. -/
private theorem node_apply (x0 : (⟨S20000x260, .f32⟩ : BufTy).Contents (Elt Ideal)) (x6 : (⟨S128x260, .f32⟩ : BufTy).Contents (Elt Ideal))
    (x7 x8 : (⟨S128, .f32⟩ : BufTy).Contents (Elt Ideal)) (n : Fin 20000) (k : Fin 128) :
    (val_main_v10 (F := Ideal) x0 x6 x7 x8 : S20000x128.Idx → EReal) (ix2 n k)
      = Cert.Spec.nodeRow (fun q => (x0 : S20000x260.Idx → EReal) (ix2 n q))
          (fun q j' => (val_main_v5 (F := Ideal) x6 x7 : S260x128.Idx → EReal) (ix2 q j'))
          (fun j' => (x8 : S128.Idx → EReal) (ix1 j')) k := by
  rw [val_main_v10_apply, val_main_v9_apply, val_main_v6_apply, val_main_v8_apply, val_main_v7_apply,
    val_main_call1_v0_apply, val_main_call1_cst_apply]
  generalize val_main_v5 (F := Ideal) x6 x7 = W
  have e1 : ∀ q : Fin 260, lidx_main_v6 (ix2 n k) q = ix2 n q := fun q =>
    funext fun a => by match a with | ⟨0, _⟩ => rfl | ⟨1, _⟩ => rfl
  have e2 : ∀ q : Fin 260, ridx_main_v6 (ix2 n k) q = ix2 q k := fun q =>
    funext fun a => by match a with | ⟨0, _⟩ => rfl | ⟨1, _⟩ => rfl
  have e3 : idx_main_v7 (idx_main_v8 (ix2 n k)) = ix1 k := funext fun a => by match a with | ⟨0, _⟩ => rfl
  simp only [e1, e2, e3]
  rfl

/-- The geometry table: a projected, shifted and rectified geometry row. -/
private theorem geo_apply (x1 : (⟨S320000x8, .f32⟩ : BufTy).Contents (Elt Ideal)) (x9 : (⟨S30x8, .f32⟩ : BufTy).Contents (Elt Ideal))
    (x10 x11 : (⟨S30, .f32⟩ : BufTy).Contents (Elt Ideal)) (e : Fin 320000) (q : Fin 30) :
    (val_main_v36 (F := Ideal) x1 x9 x10 x11 : S320000x30.Idx → EReal) (ix2 e q)
      = Cert.Spec.geo (fun k => (x1 : S320000x8.Idx → EReal) (ix2 e k))
          (fun k q' => (val_main_v31 (F := Ideal) x9 x10 : S8x30.Idx → EReal) (ix2 k q'))
          (fun q' => (x11 : S30.Idx → EReal) (ix1 q')) q := by
  rw [val_main_v36_apply, val_main_v35_apply, val_main_v32_apply, val_main_v34_apply, val_main_v33_apply,
    val_main_call3_v0_apply, val_main_call3_cst_apply]
  generalize val_main_v31 (F := Ideal) x9 x10 = W
  have e1 : ∀ k : Fin 8, lidx_main_v32 (ix2 e q) k = ix2 e k := fun k =>
    funext fun a => by match a with | ⟨0, _⟩ => rfl | ⟨1, _⟩ => rfl
  have e2 : ∀ k : Fin 8, ridx_main_v32 (ix2 e q) k = ix2 k q := fun k =>
    funext fun a => by match a with | ⟨0, _⟩ => rfl | ⟨1, _⟩ => rfl
  have e3 : idx_main_v33 (idx_main_v34 (ix2 e q)) = ix1 q := funext fun a => by match a with | ⟨0, _⟩ => rfl
  simp only [e1, e2, e3]
  rfl

/-- The conditioning table: a projected and shifted conditioning row. -/
private theorem cond_apply (x2 : (⟨S64x512, .f32⟩ : BufTy).Contents (Elt Ideal)) (x12 : (⟨S256x512, .f32⟩ : BufTy).Contents (Elt Ideal))
    (x13 x14 : (⟨S256, .f32⟩ : BufTy).Contents (Elt Ideal)) (k : Fin 64) (c : Fin 256) :
    (val_main_v47 (F := Ideal) x2 x12 x13 x14 : S64x256.Idx → EReal) (ix2 k c)
      = Cert.Spec.gbAt x2 (val_main_v43 (F := Ideal) x12 x13) x14 k c := by
  rw [val_main_v47_apply, val_main_v44_apply, val_main_v46_apply, val_main_v45_apply]
  generalize val_main_v43 (F := Ideal) x12 x13 = W
  have e1 : ∀ q : Fin 512, lidx_main_v44 (ix2 k c) q = ix2 k q := fun q =>
    funext fun a => by match a with | ⟨0, _⟩ => rfl | ⟨1, _⟩ => rfl
  have e2 : ∀ q : Fin 512, ridx_main_v44 (ix2 k c) q = ix2 q c := fun q =>
    funext fun a => by match a with | ⟨0, _⟩ => rfl | ⟨1, _⟩ => rfl
  have e3 : idx_main_v45 (idx_main_v46 (ix2 k c)) = ix1 c := funext fun a => by match a with | ⟨0, _⟩ => rfl
  simp only [e1, e2, e3]
  rfl

/-! ## The joined row -/

/-- The first concatenation at a position of its first piece … -/
private theorem cat2_left (A B : S320000x128.Idx → EReal) (e : Fin 320000) (k : Fin 256) (hk : k.val < 128) :
    concatenate S320000x256 1 [⟨S320000x128, A⟩, ⟨S320000x128, B⟩] concatenates_S320000x128_S320000x128_S320000x256_d1 (ix2 e k)
      = A (ix2 e ⟨k.val, hk⟩) :=
  concatenate_pair_apply_left 1 A B _ (ix2 e k) rfl (ix2 e ⟨k.val, hk⟩)
    (fun b => by match b with | ⟨0, _⟩ => rfl | ⟨1, _⟩ => rfl)

/-- … and of its second piece. -/
private theorem cat2_right (A B : S320000x128.Idx → EReal) (e : Fin 320000) (k : Fin 256) (hk : ¬ k.val < 128) :
    concatenate S320000x256 1 [⟨S320000x128, A⟩, ⟨S320000x128, B⟩] concatenates_S320000x128_S320000x128_S320000x256_d1 (ix2 e k)
      = B (ix2 e ⟨k.val - 128, by have := k.isLt; omega⟩) :=
  concatenate_pair_apply_right 1 A B _ (ix2 e k) rfl rfl (ix2 e ⟨k.val - 128, by have := k.isLt; omega⟩)
    (fun b hb => by
      match b with
      | ⟨0, _⟩ => rfl
      | ⟨1, _⟩ => exact absurd rfl hb)
    (by show (k.val - 128) + 128 = k.val; omega)

/-- The second concatenation at a position of its first piece … -/
private theorem cat3_left (A : S320000x256.Idx → EReal) (B : S320000x30.Idx → EReal) (e : Fin 320000) (k : Fin 286) (hk : k.val < 256) :
    concatenate S320000x286 1 [⟨S320000x256, A⟩, ⟨S320000x30, B⟩] concatenates_S320000x256_S320000x30_S320000x286_d1 (ix2 e k)
      = A (ix2 e ⟨k.val, hk⟩) :=
  concatenate_pair_apply_left 1 A B _ (ix2 e k) rfl (ix2 e ⟨k.val, hk⟩)
    (fun b => by match b with | ⟨0, _⟩ => rfl | ⟨1, _⟩ => rfl)

/-- … and of its second piece. -/
private theorem cat3_right (A : S320000x256.Idx → EReal) (B : S320000x30.Idx → EReal) (e : Fin 320000) (k : Fin 286) (hk : ¬ k.val < 256) :
    concatenate S320000x286 1 [⟨S320000x256, A⟩, ⟨S320000x30, B⟩] concatenates_S320000x256_S320000x30_S320000x286_d1 (ix2 e k)
      = B (ix2 e ⟨k.val - 256, by have := k.isLt; omega⟩) :=
  concatenate_pair_apply_right 1 A B _ (ix2 e k) rfl rfl (ix2 e ⟨k.val - 256, by have := k.isLt; omega⟩)
    (fun b hb => by
      match b with
      | ⟨0, _⟩ => rfl
      | ⟨1, _⟩ => exact absurd rfl hb)
    (by show (k.val - 256) + 256 = k.val; omega)

/-- The joined row at a position: the first take's row, then the second take's, then the geometry row. -/
private theorem join_apply (x0 : (⟨S20000x260, .f32⟩ : BufTy).Contents (Elt Ideal)) (x1 : (⟨S320000x8, .f32⟩ : BufTy).Contents (Elt Ideal))
    (x3 x4 : (⟨S320000, .i32⟩ : BufTy).Contents (Elt Ideal)) (x6 : (⟨S128x260, .f32⟩ : BufTy).Contents (Elt Ideal))
    (x7 x8 : (⟨S128, .f32⟩ : BufTy).Contents (Elt Ideal)) (x9 : (⟨S30x8, .f32⟩ : BufTy).Contents (Elt Ideal))
    (x10 x11 : (⟨S30, .f32⟩ : BufTy).Contents (Elt Ideal)) (e : Fin 320000) (k : Fin 286) :
    (val_main_v37 (F := Ideal) x0 x1 x3 x4 x6 x7 x8 x9 x10 x11 : S320000x286.Idx → EReal) (ix2 e k)
      = Cert.Spec.join (fun q => (val_main_v17 (F := Ideal) x0 x3 x6 x7 x8 : S320000x128.Idx → EReal) (ix2 e q))
          (fun q => (val_main_v24 (F := Ideal) x0 x4 x6 x7 x8 : S320000x128.Idx → EReal) (ix2 e q))
          (fun q => (val_main_v36 (F := Ideal) x1 x9 x10 x11 : S320000x30.Idx → EReal) (ix2 e q)) k := by
  unfold val_main_v37 val_main_v25
  generalize val_main_v17 (F := Ideal) x0 x3 x6 x7 x8 = A
  generalize val_main_v24 (F := Ideal) x0 x4 x6 x7 x8 = B
  generalize val_main_v36 (F := Ideal) x1 x9 x10 x11 = G
  unfold Cert.Spec.join
  by_cases h1 : k.val < 128
  · rw [dif_pos h1, cat3_left _ G e k (by omega), cat2_left A B e ⟨k.val, by omega⟩ h1]
  · rw [dif_neg h1]
    by_cases h2 : k.val < 256
    · rw [dif_pos h2, cat3_left _ G e k h2, cat2_right A B e ⟨k.val, h2⟩ h1]
    · rw [dif_neg h2, cat3_right _ G e k h2]

/-! ## The FiLM linear layer -/

/-- The linear layer over the joined row, plus its bias. -/
private theorem film_apply (x0 : (⟨S20000x260, .f32⟩ : BufTy).Contents (Elt Ideal)) (x1 : (⟨S320000x8, .f32⟩ : BufTy).Contents (Elt Ideal))
    (x3 x4 : (⟨S320000, .i32⟩ : BufTy).Contents (Elt Ideal)) (x6 : (⟨S128x260, .f32⟩ : BufTy).Contents (Elt Ideal))
    (x7 x8 : (⟨S128, .f32⟩ : BufTy).Contents (Elt Ideal)) (x9 : (⟨S30x8, .f32⟩ : BufTy).Contents (Elt Ideal))
    (x10 x11 : (⟨S30, .f32⟩ : BufTy).Contents (Elt Ideal)) (x15 : (⟨S128x286, .f32⟩ : BufTy).Contents (Elt Ideal))
    (x16 : (⟨S128, .f32⟩ : BufTy).Contents (Elt Ideal)) (e : Fin 320000) (j : Fin 128) :
    (val_main_v63 (F := Ideal) x0 x1 x3 x4 x6 x7 x8 x9 x10 x11 x15 x16 : S320000x128.Idx → EReal) (ix2 e j)
      = Cert.Spec.film (fun k => (val_main_v37 (F := Ideal) x0 x1 x3 x4 x6 x7 x8 x9 x10 x11 : S320000x286.Idx → EReal) (ix2 e k))
          (fun k j' => (val_main_v59 (F := Ideal) x15 : S286x128.Idx → EReal) (ix2 k j'))
          (fun j' => (x16 : S128.Idx → EReal) (ix1 j')) j := by
  rw [val_main_v63_apply, val_main_v60_apply, val_main_v62_apply, val_main_v61_apply]
  generalize val_main_v37 (F := Ideal) x0 x1 x3 x4 x6 x7 x8 x9 x10 x11 = J
  generalize val_main_v59 (F := Ideal) x15 = W
  have e1 : ∀ k : Fin 286, lidx_main_v60 (ix2 e j) k = ix2 e k := fun k =>
    funext fun a => by match a with | ⟨0, _⟩ => rfl | ⟨1, _⟩ => rfl
  have e2 : ∀ k : Fin 286, ridx_main_v60 (ix2 e j) k = ix2 k j := fun k =>
    funext fun a => by match a with | ⟨0, _⟩ => rfl | ⟨1, _⟩ => rfl
  have e3 : idx_main_v61 (idx_main_v62 (ix2 e j)) = ix1 j := funext fun a => by match a with | ⟨0, _⟩ => rfl
  simp only [e1, e2, e3]
  rfl

/-! ## The normalisation, the scale and shift, the rectifier -/

/-- The mean column at row `e` is the mean of row `e` of the linear layer's output. -/
private theorem mean_apply (x0 : (⟨S20000x260, .f32⟩ : BufTy).Contents (Elt Ideal)) (x1 : (⟨S320000x8, .f32⟩ : BufTy).Contents (Elt Ideal))
    (x3 x4 : (⟨S320000, .i32⟩ : BufTy).Contents (Elt Ideal)) (x6 : (⟨S128x260, .f32⟩ : BufTy).Contents (Elt Ideal))
    (x7 x8 : (⟨S128, .f32⟩ : BufTy).Contents (Elt Ideal)) (x9 : (⟨S30x8, .f32⟩ : BufTy).Contents (Elt Ideal))
    (x10 x11 : (⟨S30, .f32⟩ : BufTy).Contents (Elt Ideal)) (x15 : (⟨S128x286, .f32⟩ : BufTy).Contents (Elt Ideal))
    (x16 : (⟨S128, .f32⟩ : BufTy).Contents (Elt Ideal)) (e : Fin 320000) :
    (val_main_v67 (F := Ideal) x0 x1 x3 x4 x6 x7 x8 x9 x10 x11 x15 x16 : S320000x1.Idx → EReal) (ix2 e (0 : Fin 1))
      = Cert.Spec.mean (fun q => (val_main_v63 (F := Ideal) x0 x1 x3 x4 x6 x7 x8 x9 x10 x11 x15 x16 : S320000x128.Idx → EReal) (ix2 e q)) := by
  rw [val_main_v67_apply, val_main_v65_apply, val_main_v64_apply, val_main_v66_apply, val_main_cst_6_apply, val_main_cst_5_apply]
  generalize val_main_v63 (F := Ideal) x0 x1 x3 x4 x6 x7 x8 x9 x10 x11 x15 x16 = Y
  have e1 : ∀ k : Fin 128, idx_main_v64 (idx_main_v65 (ix2 e (0 : Fin 1))) k = ix2 e k := fun k =>
    funext fun a => by match a with | ⟨0, _⟩ => rfl | ⟨1, _⟩ => rfl
  simp only [e1, Ideal.ofBits_def, Ideal.ofBits_zero_f32, zero_add, Ideal.hostDivf_def]
  rfl

/-- The variance column at row `e` is the mean squared deviation of row `e`. -/
private theorem variance_apply (x0 : (⟨S20000x260, .f32⟩ : BufTy).Contents (Elt Ideal)) (x1 : (⟨S320000x8, .f32⟩ : BufTy).Contents (Elt Ideal))
    (x3 x4 : (⟨S320000, .i32⟩ : BufTy).Contents (Elt Ideal)) (x6 : (⟨S128x260, .f32⟩ : BufTy).Contents (Elt Ideal))
    (x7 x8 : (⟨S128, .f32⟩ : BufTy).Contents (Elt Ideal)) (x9 : (⟨S30x8, .f32⟩ : BufTy).Contents (Elt Ideal))
    (x10 x11 : (⟨S30, .f32⟩ : BufTy).Contents (Elt Ideal)) (x15 : (⟨S128x286, .f32⟩ : BufTy).Contents (Elt Ideal))
    (x16 : (⟨S128, .f32⟩ : BufTy).Contents (Elt Ideal)) (e : Fin 320000) :
    (val_main_v74 (F := Ideal) x0 x1 x3 x4 x6 x7 x8 x9 x10 x11 x15 x16 : S320000x1.Idx → EReal) (ix2 e (0 : Fin 1))
      = Cert.Spec.variance (fun q => (val_main_v63 (F := Ideal) x0 x1 x3 x4 x6 x7 x8 x9 x10 x11 x15 x16 : S320000x128.Idx → EReal) (ix2 e q)) := by
  rw [val_main_v74_apply, val_main_v72_apply, val_main_v71_apply, val_main_v73_apply, val_main_cst_8_apply, val_main_cst_7_apply]
  have e1 : ∀ k : Fin 128, idx_main_v71 (idx_main_v72 (ix2 e (0 : Fin 1))) k = ix2 e k := fun k =>
    funext fun a => by match a with | ⟨0, _⟩ => rfl | ⟨1, _⟩ => rfl
  have e2 : ∀ k : Fin 128, idx_main_v68 (ix2 e k) = ix2 e (0 : Fin 1) := fun k =>
    funext fun a => by match a with | ⟨0, _⟩ => rfl | ⟨1, _⟩ => rfl
  simp only [e1, val_main_v70_apply, val_main_v69_apply, val_main_v68_apply, e2, mean_apply]
  generalize val_main_v63 (F := Ideal) x0 x1 x3 x4 x6 x7 x8 x9 x10 x11 x15 x16 = Y
  simp only [Ideal.ofBits_def, Ideal.ofBits_zero_f32, zero_add, Ideal.hostDivf_def, Ideal.mulf_def, Ideal.subf_def]
  rfl

/-- The result from the linear layer's output row and the conditioning take's row: normalise, scale by
    `1 +` the first half, shift by the second half, rectify. -/
private theorem tail_apply (x0 : (⟨S20000x260, .f32⟩ : BufTy).Contents (Elt Ideal)) (x1 : (⟨S320000x8, .f32⟩ : BufTy).Contents (Elt Ideal))
    (x2 : (⟨S64x512, .f32⟩ : BufTy).Contents (Elt Ideal)) (x3 x4 x5 : (⟨S320000, .i32⟩ : BufTy).Contents (Elt Ideal))
    (x6 : (⟨S128x260, .f32⟩ : BufTy).Contents (Elt Ideal)) (x7 x8 : (⟨S128, .f32⟩ : BufTy).Contents (Elt Ideal))
    (x9 : (⟨S30x8, .f32⟩ : BufTy).Contents (Elt Ideal)) (x10 x11 : (⟨S30, .f32⟩ : BufTy).Contents (Elt Ideal))
    (x12 : (⟨S256x512, .f32⟩ : BufTy).Contents (Elt Ideal)) (x13 x14 : (⟨S256, .f32⟩ : BufTy).Contents (Elt Ideal))
    (x15 : (⟨S128x286, .f32⟩ : BufTy).Contents (Elt Ideal)) (x16 : (⟨S128, .f32⟩ : BufTy).Contents (Elt Ideal)) (e : Fin 320000) (j : Fin 128) :
    (val_main_v84 (F := Ideal) x0 x1 x2 x3 x4 x5 x6 x7 x8 x9 x10 x11 x12 x13 x14 x15 x16 : S320000x128.Idx → EReal) (ix2 e j)
      = Cert.Spec.normFilm (fun q => (val_main_v63 (F := Ideal) x0 x1 x3 x4 x6 x7 x8 x9 x10 x11 x15 x16 : S320000x128.Idx → EReal) (ix2 e q))
          (fun q => (val_main_v54 (F := Ideal) x2 x5 x12 x13 x14 : S320000x256.Idx → EReal) (ix2 e ⟨q.val, by omega⟩) + Cert.Spec.cOne)
          (fun q => (val_main_v54 (F := Ideal) x2 x5 x12 x13 x14 : S320000x256.Idx → EReal) (ix2 e ⟨128 + q.val, by omega⟩)) j := by
  rw [val_main_v84_apply, val_main_v83_apply, val_main_v82_apply, val_main_v57_apply, val_main_v55_apply, val_main_v56_apply,
    val_main_cst_apply, val_main_v58_apply, val_main_v81_apply, val_main_v76_apply, val_main_v75_apply, val_main_v80_apply,
    val_main_v79_apply, val_main_v78_apply, val_main_v77_apply, val_main_cst_9_apply, val_main_call5_v0_apply,
    val_main_call5_cst_apply]
  have e1 : idx_main_v55 (ix2 e j) = ix2 e (⟨j.val, by omega⟩ : Fin 256) :=
    funext fun a => by match a with | ⟨0, _⟩ => rfl | ⟨1, _⟩ => rfl
  have e2 : idx_main_v58 (ix2 e j) = ix2 e (⟨128 + j.val, by omega⟩ : Fin 256) :=
    funext fun a => by match a with | ⟨0, _⟩ => rfl | ⟨1, _⟩ => rfl
  have e3 : idx_main_v75 (ix2 e j) = ix2 e (0 : Fin 1) :=
    funext fun a => by match a with | ⟨0, _⟩ => rfl | ⟨1, _⟩ => rfl
  have e4 : idx_main_v80 (ix2 e j) = ix2 e (0 : Fin 1) :=
    funext fun a => by match a with | ⟨0, _⟩ => rfl | ⟨1, _⟩ => rfl
  rw [e1, e2, e3, e4, mean_apply, variance_apply]
  generalize val_main_v63 (F := Ideal) x0 x1 x3 x4 x6 x7 x8 x9 x10 x11 x15 x16 = Y
  generalize val_main_v54 (F := Ideal) x2 x5 x12 x13 x14 = Gb
  rfl

/-- The reference's result at entry `(e, j)`, for an edge whose three indices are in range. -/
theorem ref_apply (x0 : (⟨S20000x260, .f32⟩ : BufTy).Contents (Elt Ideal)) (x1 : (⟨S320000x8, .f32⟩ : BufTy).Contents (Elt Ideal)) (x2 : (⟨S64x512, .f32⟩ : BufTy).Contents (Elt Ideal)) (x3 x4 x5 : (⟨S320000, .i32⟩ : BufTy).Contents (Elt Ideal)) (x6 : (⟨S128x260, .f32⟩ : BufTy).Contents (Elt Ideal)) (x7 x8 : (⟨S128, .f32⟩ : BufTy).Contents (Elt Ideal)) (x9 : (⟨S30x8, .f32⟩ : BufTy).Contents (Elt Ideal)) (x10 x11 : (⟨S30, .f32⟩ : BufTy).Contents (Elt Ideal)) (x12 : (⟨S256x512, .f32⟩ : BufTy).Contents (Elt Ideal)) (x13 x14 : (⟨S256, .f32⟩ : BufTy).Contents (Elt Ideal)) (x15 : (⟨S128x286, .f32⟩ : BufTy).Contents (Elt Ideal)) (x16 : (⟨S128, .f32⟩ : BufTy).Contents (Elt Ideal))
    (e : Fin 320000) (j : Fin 128)
    (h3 : Cert.Spec.InRange 20000 ((x3 : S320000.Idx → BitVec 32) (ix1 e)))
    (h4 : Cert.Spec.InRange 20000 ((x4 : S320000.Idx → BitVec 32) (ix1 e)))
    (h5 : Cert.Spec.InRange 64 ((x5 : S320000.Idx → BitVec 32) (ix1 e))) :
    (val_main_v84 (F := Ideal) x0 x1 x2 x3 x4 x5 x6 x7 x8 x9 x10 x11 x12 x13 x14 x15 x16 : S320000x128.Idx → EReal) (ix2 e j)
      = Cert.Spec.resultAt x0 x1 x2 x3 x4 x5 (val_main_v5 (F := Ideal) x6 x7) x8 (val_main_v31 (F := Ideal) x9 x10) x11
          (val_main_v43 (F := Ideal) x12 x13) x14 (val_main_v59 (F := Ideal) x15) x16 e j := by
  have t17 := fun k => v17_apply x0 x3 x6 x7 x8 e k h3
  have t24 := fun k => v24_apply x0 x4 x6 x7 x8 e k h4
  have t54 := fun c => v54_apply x2 x5 x12 x13 x14 e c h5
  rw [tail_apply]
  simp only [film_apply, join_apply, t17, t24, t54, node_apply, geo_apply, cond_apply]
  generalize val_main_v5 (F := Ideal) x6 x7 = W1
  generalize val_main_v31 (F := Ideal) x9 x10 = W2
  generalize val_main_v43 (F := Ideal) x12 x13 = W3
  generalize val_main_v59 (F := Ideal) x15 = W4
  rfl

end Cert.ReferenceIdeal.Hand

end
-- ==== Proof.PreDecode.lean ====
/-
  The precondition read: beside the finiteness of the float inputs it says that every end-node index lies in
  `[0, 20000)` and every graph index in `[0, 64)` — each a conjunction, over all 320000 edges, of two signed
  comparisons of the index word.
-/
import proofs.«414055_j42691974922540_1_alg».proof.Proof.Gen.Pre_finite_inputs
import proofs.«414055_j42691974922540_1_alg».proof.Proof.Spec
import Idealize.ShloMosaic.Lib.ValueIdx
import Idealize.ShloMosaic.Lib.ReduceAll
import Idealize.ShloMosaic.Lib.StableHlo.Predicate

set_option maxRecDepth 16384

noncomputable section

open scoped BigOperators
open Idealize.ShloMosaic Idealize.ShloMosaic.TcCoe Idealize.ShloMosaic.ValueIdx Idealize.SL.Sem

namespace Cert.Pre_finite_inputs.Hand

open Cert.Pre_finite_inputs Cert.Pre_finite_inputs.Gen

/-- The scalar shape has exactly one index. -/
private instance : Subsingleton S_.Idx := ⟨fun a b => funext fun d => d.elim0⟩

/-- A word that tests `0 ≤ w` and `w < N` signed, for a literal `N` below `2³¹`, is in range: the literals `0` and `N`
    read signed are the integers `0` and `N`. -/
private theorem inRange_of_cmp (N : Nat) (hN : N < 2 ^ 31) (w : BitVec 32)
    (h : IntOp.andi (IntOp.cmpi .sge w 0#32) (IntOp.cmpi .slt w (BitVec.ofNat 32 N)) = 1#1) :
    Cert.Spec.InRange N w := by
  obtain ⟨h0, h1⟩ := IntOp.andi_eq_one.1 h
  rw [IntOp.cmpi_sge] at h0
  rw [IntOp.cmpi_slt] at h1
  have z : (0#32 : BitVec 32).toInt = 0 := by decide
  have n : (BitVec.ofNat 32 N).toInt = (N : Int) := by
    rw [BitVec.toInt_ofNat']
    exact Int.bmod_eq_of_le (by omega) (by omega)
  rw [z] at h0
  rw [n] at h1
  exact ⟨h0, h1⟩

/-- A conjunction over all 320000 words of the two range comparisons that came out one: every word is in range
    (the broadcast scalars read their constant at every index, the comparisons and the `and` act entry by entry). -/
private theorem inRange_of_all (N : Nat) (hN : N < 2 ^ 31) (x : IVec S320000 32) (init : IVec S_ 1)
    (hb : S_.BroadcastsInDim S320000 (![] : Fin 0 → Fin S320000.rank)) (hr : S320000.ReducesTo [0] S_) (hu : 0 < S_.numel)
    (h : Host.reduce IntOp.andi
          (andi (cmpi .sge x (broadcastInDim S320000 ![] hb (constantI S_ 32 0#32)))
                (cmpi .slt x (broadcastInDim S320000 ![] hb (constantI S_ 32 (BitVec.ofNat 32 N))))) init hr hu ix0 = 1#1)
    (e : Fin 320000) : Cert.Spec.InRange N (x (ix1 e)) :=
  inRange_of_cmp N hN _ (Host.reduce_andi_all _ _ hr hu ix0 h (ix1 e))

/-- The tail of the chain (its last two parts): the result is the `and` of the float checks' bit with the three
    index conjunctions, so each of the three is one. -/
private theorem part4_decode (a3 a4 a5 : IVec S320000 32) (v63 v67 : IVec S_ 1)
    (h : fn_part4 (F := Ideal) a3 a4 a5 v63 v67 ix0 = 1#1) (e : Fin 320000) :
    Cert.Spec.InRange 20000 (a3 (ix1 e)) ∧ Cert.Spec.InRange 20000 (a4 (ix1 e)) ∧ Cert.Spec.InRange 64 (a5 (ix1 e)) := by
  unfold fn_part4 fn_part5 at h
  dsimp only at h
  obtain ⟨h, h5⟩ := IntOp.andi_eq_one.1 h
  obtain ⟨h, h4⟩ := IntOp.andi_eq_one.1 h
  obtain ⟨-, h3⟩ := IntOp.andi_eq_one.1 h
  exact ⟨inRange_of_all 20000 (by decide) a3 _ _ _ _ h3 e, inRange_of_all 20000 (by decide) a4 _ _ _ _ h4 e,
    inRange_of_all 64 (by decide) a5 _ _ _ _ h5 e⟩

/-- The three index conjuncts of the precondition, at one edge. -/
theorem inRange_of_fn (x0 : (⟨S20000x260, .f32⟩ : BufTy).Contents (Elt Ideal)) (x1 : (⟨S320000x8, .f32⟩ : BufTy).Contents (Elt Ideal)) (x2 : (⟨S64x512, .f32⟩ : BufTy).Contents (Elt Ideal)) (x3 x4 x5 : (⟨S320000, .i32⟩ : BufTy).Contents (Elt Ideal)) (x6 : (⟨S128x260, .f32⟩ : BufTy).Contents (Elt Ideal)) (x7 x8 : (⟨S128, .f32⟩ : BufTy).Contents (Elt Ideal)) (x9 : (⟨S30x8, .f32⟩ : BufTy).Contents (Elt Ideal)) (x10 x11 : (⟨S30, .f32⟩ : BufTy).Contents (Elt Ideal)) (x12 : (⟨S256x512, .f32⟩ : BufTy).Contents (Elt Ideal)) (x13 x14 : (⟨S256, .f32⟩ : BufTy).Contents (Elt Ideal)) (x15 : (⟨S128x286, .f32⟩ : BufTy).Contents (Elt Ideal)) (x16 : (⟨S128, .f32⟩ : BufTy).Contents (Elt Ideal))
    (h : Cert.Pre_finite_inputs.fn (F := Ideal) x0 x1 x2 x3 x4 x5 x6 x7 x8 x9 x10 x11 x12 x13 x14 x15 x16 = (fun _ => 1#1))
    (e : Fin 320000) :
    Cert.Spec.InRange 20000 ((x3 : S320000.Idx → BitVec 32) (ix1 e))
      ∧ Cert.Spec.InRange 20000 ((x4 : S320000.Idx → BitVec 32) (ix1 e))
      ∧ Cert.Spec.InRange 64 ((x5 : S320000.Idx → BitVec 32) (ix1 e)) := by
  -- the first three parts only compute the float checks' bits: the whole chain is its fourth part at those two bits
  obtain ⟨v63, v67, h4⟩ : ∃ v63 v67 : IVec S_ 1, fn_part4 (F := Ideal) x3 x4 x5 v63 v67 ix0 = 1#1 :=
    ⟨_, _, congrFun h ix0⟩
  exact part4_decode _ _ _ v63 v67 h4 e

end Cert.Pre_finite_inputs.Hand

end
-- ==== Proof.lean ====
/-
  The kernel against its reference, over the extended reals, for finite float inputs, end-node indices in
  `[0, 20000)` and graph indices in `[0, 64)`.

  Both programs project every node's features (a weight-normed linear layer, bias, rectifier), read the projected rows
  of each edge's two end nodes, join them with a rectified projection of the edge's geometry, apply the FiLM linear
  layer, normalise over the 128 channels, and scale, shift and rectify by the conditioning row of the edge's graph.
  They differ in how they read tables: the kernel takes node rows with a fill for out-of-range indices and selects the
  conditioning row by a product with an indicator row, the reference gathers with clamping; for indices in range all of
  these read the row the index names. Format changes are the identity over the extended reals and a blocked matrix
  product is the whole one, so both results are `Spec.result` of the same argument arrays and of the same four prepared
  weight matrices (the same host operations in both programs, compared without opening them).
-/
import proofs.«414055_j42691974922540_1_alg».proof.Defs
import proofs.«414055_j42691974922540_1_alg».proof.Proof.Gen.Kernel
import proofs.«414055_j42691974922540_1_alg».proof.Proof.Gen.Kernel.Skeleton
import proofs.«414055_j42691974922540_1_alg».proof.Proof.Gen.Kernel.Launch
import proofs.«414055_j42691974922540_1_alg».proof.Proof.Gen.Kernel.Points
import proofs.«414055_j42691974922540_1_alg».proof.Proof.Gen.Kernel.Frame
import proofs.«414055_j42691974922540_1_alg».proof.Proof.Gen.KernelIdeal
import proofs.«414055_j42691974922540_1_alg».proof.Proof.Gen.KernelIdeal.Skeleton
import proofs.«414055_j42691974922540_1_alg».proof.Proof.Gen.KernelIdeal.Launch
import proofs.«414055_j42691974922540_1_alg».proof.Proof.Gen.KernelIdeal.Points
import proofs.«414055_j42691974922540_1_alg».proof.Proof.Gen.KernelIdeal.Frame
import proofs.«414055_j42691974922540_1_alg».proof.Proof.Gen.ReferenceIdeal
import proofs.«414055_j42691974922540_1_alg».proof.Proof.Gen.Pre_finite_inputs
import proofs.«414055_j42691974922540_1_alg».proof.Proof.Gen.ReferenceIdeal.Run
import proofs.«414055_j42691974922540_1_alg».proof.Proof.Gen.ReferenceIdeal.Read
import proofs.«414055_j42691974922540_1_alg».proof.Proof.KernelValue
import proofs.«414055_j42691974922540_1_alg».proof.Proof.RefValue
import proofs.«414055_j42691974922540_1_alg».proof.Proof.PreDecode
import Idealize.ShloMosaic.Adequacy
import Idealize.ShloMosaic.Init

set_option maxRecDepth 16384

noncomputable section

namespace Cert.Proof

open Idealize.ShloMosaic Idealize.ShloMosaic.ValueIdx Idealize.SL.Sem

/-! ## The prepared weight matrices are the same terms in both programs -/

theorem wnT_eq (v : FVec Ideal Cert.KernelIdeal.S128x260 .f32) (g : FVec Ideal Cert.KernelIdeal.S128 .f32) :
    Cert.KernelIdeal.Hand.wnT v g = Cert.ReferenceIdeal.Read.val_main_v5 (F := Ideal) v g := rfl

theorem wgT_eq (v : FVec Ideal Cert.KernelIdeal.S30x8 .f32) (g : FVec Ideal Cert.KernelIdeal.S30 .f32) :
    Cert.KernelIdeal.Hand.wgT v g = Cert.ReferenceIdeal.Read.val_main_v31 (F := Ideal) v g := rfl

theorem wcT_eq (v : FVec Ideal Cert.KernelIdeal.S256x512 .f32) (g : FVec Ideal Cert.KernelIdeal.S256 .f32) :
    Cert.KernelIdeal.Hand.wcT v g = Cert.ReferenceIdeal.Read.val_main_v43 (F := Ideal) v g := rfl

theorem fwT_eq (w : FVec Ideal Cert.KernelIdeal.S128x286 .f32) :
    Cert.KernelIdeal.Hand.fwT w = Cert.ReferenceIdeal.Read.val_main_v59 (F := Ideal) w := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result array at `Spec.result` of the arguments: the kernel's by `kernel_run`, the
    reference's by its run read at every entry (`ref_apply`), the prepared weights being the same terms. -/
theorem algebraic : Cert.algebraic_KernelIdeal_ReferenceIdeal := by
  intro m ρ m' ρ' hpre hagree
  have hin := fun (c : Dev Cert.KernelIdeal.nD) (e : Fin 320000) =>
    Cert.Pre_finite_inputs.Hand.inRange_of_fn _ _ _ _ _ _ _ _ _ _ _ _ _ _ _ _ _ (hpre c) e
  refine ⟨fun c => Cert.KernelIdeal.Hand.value m c, Cert.KernelIdeal.Hand.kernel_run m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq]
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  refine Cert.Spec.ext2 _ _ fun e j => ?_
  rw [Cert.ReferenceIdeal.Hand.ref_apply _ _ _ _ _ _ _ _ _ _ _ _ _ _ _ _ _ e j (hin c e).1 (hin c e).2.1 (hin c e).2.2]
  show _ = Cert.KernelIdeal.Hand.value m c (ix2 e j)
  unfold Cert.KernelIdeal.Hand.value
  rw [Cert.Spec.result_apply, wnT_eq, wgT_eq, wcT_eq, fwT_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
